-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn {F : FTy → Type} [FloatOps F] (main_arg0 : FVec F S10000x128 .f32) (main_arg1 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : IVec S1x640000 32 := (extractStridedSlice S1x640000 ![1, 0] · slices_S2x640000_S1x640000_1_0) main_arg1
  let main_v5 : IVec S640000 32 := shapeCast S640000 main_v4 shapeCasts_S1x640000_S640000
  let main_c_0 : IVec S_ 32 := constantI S_ 32 0#32
  let main_v6 : IVec S640000 32 := broadcastInDim S640000 ![] bcast_S_S640000 main_c_0
  let main_v7 : IVec S640000 1 := cmpi .sge main_v5 main_v6
  let main_v8 : IVec S1x640000 32 := (extractStridedSlice S1x640000 ![1, 0] · slices_S2x640000_S1x640000_1_0) main_arg1
  let main_v9 : IVec S640000 32 := shapeCast S640000 main_v8 shapeCasts_S1x640000_S640000
  let main_c_1 : IVec S_ 32 := constantI S_ 32 10000#32
  let main_v10 : IVec S640000 32 := broadcastInDim S640000 ![] bcast_S_S640000 main_c_1
  let main_v11 : IVec S640000 1 := cmpi .slt main_v9 main_v10
  let main_v12 : IVec S640000 1 := andi main_v7 main_v11
  let main_c_2 : IVec S_ 1 := constantI S_ 1 1#1
  let main_v13 : IVec S_ 1 := (fun x v => Host.reduce IntOp.andi x v reducesTo_S640000_S_d0 h_S_) main_v12 main_c_2
  let main_v14 : IVec S_ 1 := andi main_v3 main_v13
  main_v14
-- ==== Kernel.lean ====
abbrev S10000x128 : Shape := ⟨2, ![10000, 128]⟩
abbrev S2x640000 : Shape := ⟨2, ![2, 640000]⟩
abbrev S1x640000 : Shape := ⟨2, ![1, 640000]⟩
abbrev S640000 : Shape := ⟨1, ![640000]⟩
abbrev S10000x256 : Shape := ⟨2, ![10000, 256]⟩
abbrev S1x128 : Shape := ⟨2, ![1, 128]⟩
abbrev S128x128 : Shape := ⟨2, ![128, 128]⟩
abbrev S128x256 : Shape := ⟨2, ![128, 256]⟩
abbrev S10000x1 : Shape := ⟨2, ![10000, 1]⟩
abbrev S_ : Shape := ⟨0, ![]⟩

abbrev nBuf : Space → Nat
  | .hbm => 24
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S1x640000, .i32⟩
  | .hbm, ⟨8, _⟩ => ⟨S10000x128, .bf16⟩
  | .hbm, ⟨9, _⟩ => ⟨S10000x256, .f32⟩
  | .hbm, ⟨10, _⟩ => ⟨S10000x128, .f32⟩
  | .hbm, ⟨11, _⟩ => ⟨S10000x1, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x1, .f32⟩
  | .hbm, ⟨19, _⟩ => ⟨S10000x1, .i1⟩
  | .hbm, ⟨20, _⟩ => ⟨S10000x1, .f32⟩
  | .hbm, ⟨21, _⟩ => ⟨S10000x128, .f32⟩
  | .hbm, ⟨22, _⟩ => ⟨S10000x128, .f32⟩
  | .hbm, ⟨23, _⟩ => ⟨S10000x256, .f32⟩
  | .local _ .vmem, ⟨0, _⟩ => ⟨S10000x128, .bf16⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S1x128, .i32⟩
  | .local _ .vmem, ⟨5, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![5000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000_S1x640000 : S640000.ShapeCasts S1x640000
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S10000x128_d0_w32 : S10000x128.Iotas .tc 32 [0]
  broadcasts_S1x128_S10000x128 : S1x128.Broadcasts S10000x128
  natLt_1_32 : 1 < 32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S128x128_S128x128_S128x256_d1 : Shape.Concatenates [S128x128, S128x128] S128x256 1
  shapeCasts_S10000x256_S10000x256 : S10000x256.ShapeCasts S10000x256
  slices_S10000x256_S10000x128_0_0 : S10000x256.Slices ![0, 0] S10000x128
  slices_S10000x256_S10000x1_0_128 : S10000x256.Slices ![0, 128] S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  dot_S10000x128_S10000x128_S128x128_0_0_1_1_n_n_wf : DotDims.WF S10000x128 S10000x128 S128x128 [0] [0] [1] [1] [] []
  dot_S10000x128_S128x256_S10000x256_1_0_0_1_n_n_wf : DotDims.WF S10000x128 S128x256 S10000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x640000.size a
  hwx0_1 : ∀ i : grid0.Coords, EltTy.bits .i32 = 32 ∨ (Rect.block (s := S1x640000) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x640000.size a
  hwx0_2 : ∀ i : grid0.Coords, EltTy.bits .i32 = 32 ∨ (Rect.block (s := S1x640000) S1x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x256.size a ≤ S10000x256.size a
  hwx0_3 : ∀ i : grid0.Coords, EltTy.bits .f32 = 32 ∨ (Rect.block (s := S10000x256) S10000x256.size (cc0_transform_3 i) (hinb0_3 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

abbrev win0_0 : Pipeline.Window sig grid0 :=
  Pipeline.Window.ofSpec (Memref.whole main_v6) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S10000x256 : Shape := ⟨2, ![10000, 256]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x256, .f32⟩
  | .hbm, ⟨25, _⟩ => ⟨S_, .f32⟩
  | .hbm, ⟨26, _⟩ => ⟨S10000x256, .f32⟩
  | .hbm, ⟨27, _⟩ => ⟨S640000x1, .i32⟩
  | .hbm, ⟨28, _⟩ => ⟨S10000x256, .f32⟩
  | .hbm, ⟨29, _⟩ => ⟨S_, .f32⟩
  | .hbm, ⟨30, _⟩ => ⟨S640000, .f32⟩
  | .hbm, ⟨31, _⟩ => ⟨S_, .f32⟩
  | .hbm, ⟨32, _⟩ => ⟨S10000, .f32⟩
  | .hbm, ⟨33, _⟩ => ⟨S640000x1, .i32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000x1, .f32⟩
  | .hbm, ⟨39, _⟩ => ⟨S10000x256, .f32⟩
  | .hbm, ⟨40, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  gather_S10000x128_S640000x1_S640000x128_1_0_n_n_0_1_1128_wf : GatherDims.WF S10000x128 S640000x1 S640000x128 [1] [0] [] [0] [] 1 ![1, 128]
  scatter_S10000x256_S640000x1_S640000x256_1_0_0_1_wf : ScatterDims.WF S10000x256 S640000x1 S640000x256 [1] [0] [0] 1
  scatter_S10000_S640000x1_S640000_n_0_0_1_wf : ScatterDims.WF S10000 S640000x1 S640000 [] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.SumLaws.lean ====
/-
  Sums on the extended reals that the segment-mean comparison needs, over abstract finite index types.

  * a one-hot weighted sum picks one term: `∑ n, (if n = a then 1 else 0) * f n = f a`, and is `0` when no index matches;
  * a sum over a product of two ranges laid out row-major is the sum over the long range;
  * a constant summed over a finite set is the count times the constant, and for a finite constant the mean of
    `n` equal terms is the term.
-/
import Mathlib.Data.EReal.Inv
import Mathlib.Algebra.BigOperators.Fin
import Mathlib.Algebra.BigOperators.Group.Finset.Basic

namespace Cert.SegMean

open Finset

/-- A weight that is `1` at the indices satisfying `p` and `0` elsewhere turns a weighted sum into the sum over `p`. -/
theorem sum_indicator_mul {ι : Type} [Fintype ι] (p : ι → Prop) [DecidablePred p] (f : ι → EReal) :
    (∑ n, (if p n then (1 : EReal) else 0) * f n) = ∑ n ∈ univ.filter p, f n := by
  rw [Finset.sum_filter]
  refine Finset.sum_congr rfl fun n _ => ?_
  by_cases h : p n
  · rw [if_pos h, if_pos h, one_mul]
  · rw [if_neg h, if_neg h, zero_mul]

/-- A one-hot weight at `a` picks the term at `a`. -/
theorem sum_onehot_mul {ι : Type} [Fintype ι] [DecidableEq ι] (a : ι) (f : ι → EReal) :
    (∑ n, (if n = a then (1 : EReal) else 0) * f n) = f a := by
  rw [sum_indicator_mul, Finset.filter_eq' univ a, if_pos (Finset.mem_univ a), Finset.sum_singleton]

end Cert.SegMean
-- ==== Proof.Spec.lean ====
/-
  The function both programs compute, stated once over literal shapes.

  The inputs are node features `x : [10000, 128]` and an edge list `es : [2, 640000]` of 32-bit words: row 0 holds each
  edge's destination, row 1 its source. Edge `e` LANDS on node `i` when its destination word is the word of `i`; a word
  that names no node lands nowhere. The in-degree `deg i` counts the edges landing on `i`.

  The accumulated array `acc i j` is the sum, over the edges landing on `i`, of the edge's weight in column `j`: the
  source node's feature `x[src e, j]` for `j < 128`, and the constant `1` for `j ≥ 128` (so those columns hold the
  in-degree). The result divides the first 128 columns by `max (deg i) 1` — the mean of the incoming source features, zero
  for an isolated node — and holds in the last 128 columns the node's own feature `x[i, j - 128]` where the node has an
  incoming edge and `0` where it has none: the mean over the edges landing on `i` of the destination's feature, which is
  `x[i, ·]` for every such edge.
-/
import Idealize.ShloMosaic.PureOps.Ideal
import Idealize.ShloMosaic.Lib.ValueIdx
import proofs.«419609_j9698036155133_1_alg».proof.Proof.SumLaws

noncomputable section

namespace Cert.SegMean

open Idealize.ShloMosaic Idealize.ShloMosaic.ValueIdx Finset

abbrev SX : Shape := ⟨2, ![10000, 128]⟩
abbrev SE : Shape := ⟨2, ![2, 640000]⟩
abbrev SO : Shape := ⟨2, ![10000, 256]⟩

variable (x : SX.Idx → EReal) (es : SE.Idx → BitVec 32)

/-- Edge `e`'s destination word: row 0 of the edge list. -/
def dst (e : Fin 640000) : BitVec 32 := es (ix2 (0 : Fin 2) e)
/-- Edge `e`'s source word: row 1 of the edge list. -/
def src (e : Fin 640000) : BitVec 32 := es (ix2 (1 : Fin 2) e)

/-- Edge `e` lands on node `i`: its destination word is the word of `i`. -/
def Lands (i : Fin 10000) (e : Fin 640000) : Prop := dst es e = BitVec.ofNat 32 i.val

instance (i : Fin 10000) : DecidablePred (Lands es i) := fun e => by unfold Lands; infer_instance

/-- The in-degree of node `i`. -/
def deg (i : Fin 10000) : ℕ := (univ.filter (Lands es i)).card
/-- The in-degree as an extended real. -/
def degE (i : Fin 10000) : EReal := ((deg es i : ℝ) : EReal)

/-- The node a source word names, for a word below the node count. -/
def srcNode (e : Fin 640000) : Fin 10000 := ⟨min (src es e).toNat 9999, by omega⟩

/-- Edge `e`'s weight in column `j`: its source node's feature for `j < 128`, the constant `1` beyond. -/
def wgt (e : Fin 640000) (j : Fin 256) : EReal :=
  if h : j.val < 128 then x (ix2 (srcNode es e) (⟨j.val, h⟩ : Fin 128)) else 1

/-- The accumulated array: over the edges landing on `i`, the sum of their weights in column `j`. -/
def acc (i : Fin 10000) (j : Fin 256) : EReal := ∑ e ∈ univ.filter (Lands es i), wgt x es e j

/-- The accumulated array over the output shape's index set. -/
def accArr : SO.Idx → EReal := fun y => acc x es ⟨(y 0).val, idx2_lt0 y⟩ ⟨(y 1).val, idx2_lt1 y⟩

theorem accArr_ix2 (i : Fin 10000) (j : Fin 256) : accArr x es (ix2 i j) = acc x es i j := rfl

/-- The result at node `i`, column `j`. -/
def Gat (i : Fin 10000) (j : Fin 256) : EReal :=
  if h : j.val < 128 then Ideal.div (acc x es i j) (max (degE es i) 1)
  else x (ix2 i (⟨j.val - 128, by have := j.isLt; omega⟩ : Fin 128)) * (if 0 < deg es i then (1 : EReal) else 0)

/-- The result array. -/
def G : SO.Idx → EReal := fun y => Gat x es ⟨(y 0).val, idx2_lt0 y⟩ ⟨(y 1).val, idx2_lt1 y⟩

theorem G_ix2 (i : Fin 10000) (j : Fin 256) : G x es (ix2 i j) = Gat x es i j := rfl

/-! ## Counting -/

/-- Ones summed over a finite set count it. -/
theorem sum_one_eq_card {ι : Type} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The last 128 columns of the accumulated array hold the in-degree. -/
theorem acc_count (i : Fin 10000) (j : Fin 256) (h : ¬ j.val < 128) : acc x es i j = degE es i := by
  unfold acc degE deg
  rw [← sum_one_eq_card]
  exact Finset.sum_congr rfl fun e _ => by unfold wgt; rw [dif_neg h]

/-! ## Blocks of 128 edges -/

/-- A sum over `m * n` positions laid out in `m` blocks of `n` is the sum over the blocks of the sums inside each. -/
theorem sum_blocks {M : Type} [AddCommMonoid M] (m n N : ℕ) (hN : N = m * n) (f : Fin N → M) :
    ∑ e, f e = ∑ t : Fin m, ∑ k : Fin n, f ⟨n * t.val + k.val, by
      subst hN
      have ht := t.isLt; have hk := k.isLt
      calc n * t.val + k.val < n * t.val + n := by omega
        _ = n * (t.val + 1) := by ring
        _ ≤ n * m := Nat.mul_le_mul_left _ ht
        _ = m * n := Nat.mul_comm _ _⟩ := by
  subst hN
  rw [← Equiv.sum_comp (finProdFinEquiv (m := m) (n := n)) f, Fintype.sum_prod_type]
  refine Finset.sum_congr rfl fun t _ => Finset.sum_congr rfl fun k _ => ?_
  congr 1
  apply Fin.ext
  simp [finProdFinEquiv]
  ring

/-! ## The mean of equal terms -/

/-- The mean over `n` edges of one finite value `r`, with the divisor `max n 1`: `r` when there is an edge, `0` when
    there is none. -/
theorem mean_const {ι : Type} (s : Finset ι) (r : ℝ) :
    Ideal.div (∑ _e ∈ s, (r : EReal)) (max ((s.card : ℝ) : EReal) 1) = (r : EReal) * (if 0 < s.card then (1 : EReal) else 0) := by
  classical
  have hsum : (∑ _e ∈ s, (r : EReal)) = ((s.card * r : ℝ) : EReal) := by
    induction s using Finset.induction_on with
    | empty => simp
    | insert a s ha ih =>
      rw [Finset.sum_insert ha, ih, Finset.card_insert_of_notMem ha, ← EReal.coe_add]
      congr 1; push_cast; ring
  have hmax : max ((s.card : ℝ) : EReal) 1 = ((max (s.card : ℝ) 1 : ℝ) : EReal) := by
    rw [← EReal.coe_one]; exact (EReal.coe_strictMono.monotone.map_max).symm
  rw [hsum, hmax]
  have hpos : (0 : ℝ) < max (s.card : ℝ) 1 := lt_max_of_lt_right one_pos
  rw [Ideal.div_coe hpos.ne', ← EReal.coe_mul]
  by_cases hc : 0 < s.card
  · rw [if_pos hc, mul_one]
    congr 1
    have h1 : (1 : ℝ) ≤ s.card := by exact_mod_cast hc
    rw [max_eq_left h1]
    field_simp
  · rw [if_neg hc, mul_zero]
    have h0 : s.card = 0 := by omega
    rw [h0]; simp

end Cert.SegMean

end
-- ==== Proof.PreDecode.lean ====
/-
  What the precondition says, element by element: every feature is a real number, and every source word of the edge
  list, read as a signed integer, lies in [0, 10000), so that as a natural number it is below the node count.
-/
import proofs.«419609_j9698036155133_1_alg».proof.Pre_finite_inputs
import proofs.«419609_j9698036155133_1_alg».proof.Proof.Gen.Pre_finite_inputs
import proofs.«419609_j9698036155133_1_alg».proof.Proof.Spec
import Idealize.ShloMosaic.Lib.StableHlo.Predicate
import Idealize.ShloMosaic.Lib.ReduceAll
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.SegMean

open Cert.Pre_finite_inputs

/-- A 32-bit word w with 0 ≤ w and w < 10000, both read signed, is below 10000 read as a natural number: the first
    comparison excludes the negative half, where the two readings differ. -/
private theorem word_lt (w : BitVec 32) (h0 : IntOp.cmpi .sge w 0#32 = 1#1) (h1 : IntOp.cmpi .slt w 10000#32 = 1#1) :
    w.toNat < 10000 := by
  unfold IntOp.cmpi at h0 h1
  rw [StableHlo.Predicate.ofBool_eq_one_iff] at h0 h1
  simp only [BitVec.slt, BitVec.sle, decide_eq_true_eq] at h0 h1
  have hw := w.isLt
  have e0 : (0#32 : BitVec 32).toInt = 0 := by decide
  have e1 : (10000#32 : BitVec 32).toInt = 10000 := by decide
  rw [e0] at h0
  rw [e1] at h1
  rw [BitVec.toInt_eq_toNat_cond] at h0 h1
  split at h0 <;> omega

/-- An extended real x with max x (-x) strictly below +∞ (the pattern 0x7F800000) is a real number: at +∞ the maximum is
    +∞ through x, at -∞ through -x. -/
private theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  unfold Ideal.cmp at h
  rw [StableHlo.Predicate.ofBool_eq_one_iff] at h
  simp only [decide_eq_true_eq] at h
  induction x using EReal.rec with
  | bot => simp at h
  | top => simp at h
  | coe r => exact ⟨r, rfl⟩

/-- Row 1 of the edge list, flattened to a vector, holds at position e the word at (1, e): position e of the vector is
    position (0, e) of the one-row slice, which is offset by one row in the list. -/
private theorem read_src (x1 : IVec S2x640000 32) (hs : S2x640000.Slices ![1, 0] S1x640000) (hc : S1x640000.ShapeCasts S640000)
    (e : Fin 640000) :
    shapeCast S640000 (extractStridedSlice S1x640000 ![1, 0] x1 hs) hc (ix1 e) = x1 (ix2 (1 : Fin 2) e) := by
  refine (shapeCast_apply _ hc (ix1 e) (ix2 (0 : Fin 1) e) ?_).trans ?_
  · rw [Shape.rowMajor_val_two, Shape.rowMajor_val_one]
    show 0 * 640000 + e.val = e.val
    omega
  · exact extractStridedSlice_apply ![1, 0] x1 hs (ix2 (0 : Fin 1) e) (ix2 (1 : Fin 2) e) (fun a => match a with
      | ⟨0, _⟩ => by show (1 : Nat) = 1 + 0; omega
      | ⟨1, _⟩ => by show e.val = 0 + e.val; omega)

/-- The precondition, read: the features are finite and the source words name nodes. -/
theorem pre_decode (x0 : FVec Ideal S10000x128 .f32) (x1 : IVec S2x640000 32)
    (h : Cert.Pre_finite_inputs.fn (F := Ideal) x0 x1 = fun _ => 1#1) :
    (∀ i : SX.Idx, ∃ r : ℝ, x0 i = (r : EReal)) ∧ (∀ e : Fin 640000, (src x1 e).toNat < 10000) := by
  -- the scalar result has one index
  haveI : Subsingleton S_.Idx := ⟨fun a b => funext fun d => d.elim0⟩
  have h0 := congrFun h ValueIdx.ix0
  dsimp only [Cert.Pre_finite_inputs.fn] at h0
  -- the outer conjunction: both conjunctions over all elements hold
  obtain ⟨ha, hb⟩ := IntOp.andi_eq_one.1 h0
  -- a conjunction over all elements that holds, holds at each element
  have ha' := Host.reduce_andi_all _ _ _ _ _ ha
  have hb' := Host.reduce_andi_all _ _ _ _ _ hb
  refine ⟨fun i => real_of_abs_lt (x0 i) (ha' i), fun e => ?_⟩
  -- at edge e the two comparisons of the source word
  obtain ⟨h1, h2⟩ := IntOp.andi_eq_one.1 (hb' (ix1 e))
  have h1' : IntOp.cmpi .sge (shapeCast S640000 (extractStridedSlice S1x640000 ![1, 0] x1
      Facts.slices_S2x640000_S1x640000_1_0) Facts.shapeCasts_S1x640000_S640000 (ix1 e)) 0#32 = 1#1 := h1
  have h2' : IntOp.cmpi .slt (shapeCast S640000 (extractStridedSlice S1x640000 ![1, 0] x1
      Facts.slices_S2x640000_S1x640000_1_0) Facts.shapeCasts_S1x640000_S640000 (ix1 e)) 10000#32 = 1#1 := h2
  rw [read_src] at h1' h2'
  exact word_lt _ h1' h2'

end Cert.SegMean

end
-- ==== Proof.KernelPieces.lean ====
/-
  What one grid step leaves in the output's staging buffer, as a value.

  At the first grid point the body stores the zero block into the accumulator, reads it back, and stores the zero block
  plus the step's contribution; at every later point it reads the accumulator the previous point left and stores that
  plus the step's contribution. Both are the one payload `k0_pay2` — the accumulator read plus the product of the
  destination one-hot block with the gathered-and-extended edge block — applied to the blocks the step loaded: the source
  words, the destination words, the feature table, and the accumulator (the zero block `k0_pay1` at the first point).
-/
import proofs.«419609_j9698036155133_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.SegMeanValue

open Cert.KernelIdeal Cert.KernelIdeal.Gen

variable {F : FTy → Type} [FloatOps F]

theorem hz : (![0, 0] : Fin 2 → Nat) = fun _ => 0 := funext fun a => by fin_cases a <;> rfl

/-- A later grid point: the accumulator `xo` the previous point left, plus this step's contribution. -/
theorem out_B (c : Dev nD) (i : grid0.Coords) (a1 : Memref sig .tc .vmem S10000x128 .bf16) (h1 : a1.IsWhole)
    (a2 : Memref sig .tc .vmem S1x128 .i32) (h2 : a2.IsWhole) (a3 : Memref sig .tc .vmem S1x128 .i32) (h3 : a3.IsWhole)
    (a4 : Memref sig .tc .vmem S10000x256 .f32) (h4 : a4.IsWhole) (hc : ¬cond0_0 i)
    (x0 : Vec F S10000x128 .bf16) (x1 : Vec F S1x128 .i32) (x2 : Vec F S1x128 .i32) (xo : Vec F S10000x256 .f32) :
    out0_B_3 c i a1 h1 a2 h2 a3 h3 a4 h4 hc x0 x1 x2 xo = k0_pay2 x1 x2 x0 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S10000x128) hz, View.ld_unit_zero (S := S1x128) hz, View.ld_unit_zero (S := S10000x256) hz]

/-- The first grid point: the zero block, plus this step's contribution. -/
theorem out_A (c : Dev nD) (i : grid0.Coords) (a1 : Memref sig .tc .vmem S10000x128 .bf16) (h1 : a1.IsWhole)
    (a2 : Memref sig .tc .vmem S1x128 .i32) (h2 : a2.IsWhole) (a3 : Memref sig .tc .vmem S1x128 .i32) (h3 : a3.IsWhole)
    (a4 : Memref sig .tc .vmem S10000x256 .f32) (h4 : a4.IsWhole) (hc : cond0_0 i)
    (x0 : Vec F S10000x128 .bf16) (x1 : Vec F S1x128 .i32) (x2 : Vec F S1x128 .i32) :
    out0_A_3 c i a1 h1 a2 h2 a3 h3 a4 h4 hc x0 x1 x2 = k0_pay2 x1 x2 x0 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S10000x256) hz, View.readCov_unit_zero (S := S10000x256) _ hz]
  simp only [View.readAt_eq_ld, h1.read_unread, h2.read_unread, h3.read_unread,
    View.ld_unit_zero (S := S10000x128) hz, View.ld_unit_zero (S := S1x128) hz, View.ld_unit_zero (S := S10000x256) hz,
    View.readCov_unit_zero (S := S10000x256) _ hz]

end Cert.KernelIdeal.SegMeanValue

end
-- ==== Proof.KernelPayload.lean ====
/-
  One grid step's payload read at an index, on the extended reals.

  The step loads 128 source words, 128 destination words, the feature table and the accumulator. A word `w` and a node
  `n` give the one-hot weight `oh w n`: `1` when `w` is the word of `n`, else `0`. The first matrix product contracts the
  source one-hot block with the feature table over the nodes: row `k` is `∑ n, oh (src k) n * x[n, ·]`. Extended by 128
  columns of ones and multiplied by the destination one-hot block over the 128 edges, it gives the step's contribution
  `part`; the payload is the accumulator plus that.
-/
import proofs.«419609_j9698036155133_1_alg».proof.Proof.Gen.KernelIdeal.Skeleton
import proofs.«419609_j9698036155133_1_alg».proof.Proof.Spec
import Idealize.ShloMosaic.PureOps.Ideal.Laws
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.SegMeanValue

open Cert.KernelIdeal Cert.KernelIdeal.Gen

/-- The one-hot weight of the word `w` at node `n`. -/
def oh (w : BitVec 32) (n : ℕ) : EReal := if BitVec.ofNat 32 n = w then 1 else 0

/-- One grid step's contribution at node `i`, column `j`, from its source words `rowb`, destination words `colb` and
    the feature table `xb`. -/
def part (rowb colb : Vec Ideal S1x128 .i32) (xb : Vec Ideal S10000x128 .bf16) (i : Fin 10000) (j : Fin 256) : EReal :=
  ∑ k : Fin 128, oh (colb (ix2 (0 : Fin 1) k)) i.val *
    (if h : j.val < 128 then ∑ n : Fin 10000, oh (rowb (ix2 (0 : Fin 1) k)) n.val * xb (ix2 n (⟨j.val, h⟩ : Fin 128)) else 1)

/-! ## The operand indices of the two products, axis by axis -/
theorem lhs1_0 (j : S128x128.Idx) (c : dot_S10000x128_S10000x128_S128x128_0_0_1_1_n_n.contr.Idx) :
    (dot_S10000x128_S10000x128_S128x128_0_0_1_1_n_n.lhsIdx j c 0 : ℕ) = c ⟨0, by decide⟩ := by
  simp [DotDims.lhsIdx, dot_S10000x128_S10000x128_S128x128_0_0_1_1_n_n]; rfl
theorem lhs1_1 (j : S128x128.Idx) (c : dot_S10000x128_S10000x128_S128x128_0_0_1_1_n_n.contr.Idx) :
    (dot_S10000x128_S10000x128_S128x128_0_0_1_1_n_n.lhsIdx j c 1 : ℕ) = j 0 := by
  simp [DotDims.lhsIdx, dot_S10000x128_S10000x128_S128x128_0_0_1_1_n_n]; rfl
theorem rhs1_0 (j : S128x128.Idx) (c : dot_S10000x128_S10000x128_S128x128_0_0_1_1_n_n.contr.Idx) :
    (dot_S10000x128_S10000x128_S128x128_0_0_1_1_n_n.rhsIdx j c 0 : ℕ) = c ⟨0, by decide⟩ := by
  simp [DotDims.rhsIdx, dot_S10000x128_S10000x128_S128x128_0_0_1_1_n_n]; rfl
theorem rhs1_1 (j : S128x128.Idx) (c : dot_S10000x128_S10000x128_S128x128_0_0_1_1_n_n.contr.Idx) :
    (dot_S10000x128_S10000x128_S128x128_0_0_1_1_n_n.rhsIdx j c 1 : ℕ) = j 1 := by
  simp [DotDims.rhsIdx, dot_S10000x128_S10000x128_S128x128_0_0_1_1_n_n]; rfl

theorem lhs2_0 (j : S10000x256.Idx) (c : dot_S10000x128_S128x256_S10000x256_1_0_0_1_n_n.contr.Idx) :
    (dot_S10000x128_S128x256_S10000x256_1_0_0_1_n_n.lhsIdx j c 0 : ℕ) = j 0 := by
  simp [DotDims.lhsIdx, dot_S10000x128_S128x256_S10000x256_1_0_0_1_n_n]; rfl
theorem lhs2_1 (j : S10000x256.Idx) (c : dot_S10000x128_S128x256_S10000x256_1_0_0_1_n_n.contr.Idx) :
    (dot_S10000x128_S128x256_S10000x256_1_0_0_1_n_n.lhsIdx j c 1 : ℕ) = c ⟨0, by decide⟩ := by
  simp [DotDims.lhsIdx, dot_S10000x128_S128x256_S10000x256_1_0_0_1_n_n]; rfl
theorem rhs2_0 (j : S10000x256.Idx) (c : dot_S10000x128_S128x256_S10000x256_1_0_0_1_n_n.contr.Idx) :
    (dot_S10000x128_S128x256_S10000x256_1_0_0_1_n_n.rhsIdx j c 0 : ℕ) = c ⟨0, by decide⟩ := by
  simp [DotDims.rhsIdx, dot_S10000x128_S128x256_S10000x256_1_0_0_1_n_n]; rfl
theorem rhs2_1 (j : S10000x256.Idx) (c : dot_S10000x128_S128x256_S10000x256_1_0_0_1_n_n.contr.Idx) :
    (dot_S10000x128_S128x256_S10000x256_1_0_0_1_n_n.rhsIdx j c 1 : ℕ) = j 1 := by
  simp [DotDims.rhsIdx, dot_S10000x128_S128x256_S10000x256_1_0_0_1_n_n]; rfl

/-! ## The contraction indices as a node and as an edge of the step -/
/-- The contraction index of the first product is a node. -/
abbrev cE1 : dot_S10000x128_S10000x128_S128x128_0_0_1_1_n_n.contr.Idx ≃ Fin 10000 :=
  contrEquiv1 dot_S10000x128_S10000x128_S128x128_0_0_1_1_n_n 10000 rfl rfl
/-- The contraction index of the second product is an edge of the step. -/
abbrev cE2 : dot_S10000x128_S128x256_S10000x256_1_0_0_1_n_n.contr.Idx ≃ Fin 128 :=
  contrEquiv1 dot_S10000x128_S128x256_S10000x256_1_0_0_1_n_n 128 rfl rfl

theorem lhsIdx1_eq (k d : Fin 128) (n : Fin 10000) :
    dot_S10000x128_S10000x128_S128x128_0_0_1_1_n_n.lhsIdx (ix2 k d) (cE1.symm n) = ix2 n k := by
  refine Shape.idx_ext₂ ?_ ?_
  · exact (lhs1_0 _ _).trans (contrEquiv1_symm_val _ _ _ _ n)
  · exact lhs1_1 _ _
theorem rhsIdx1_eq (k d : Fin 128) (n : Fin 10000) :
    dot_S10000x128_S10000x128_S128x128_0_0_1_1_n_n.rhsIdx (ix2 k d) (cE1.symm n) = ix2 n d := by
  refine Shape.idx_ext₂ ?_ ?_
  · exact (rhs1_0 _ _).trans (contrEquiv1_symm_val _ _ _ _ n)
  · exact rhs1_1 _ _
theorem lhsIdx2_eq (i : Fin 10000) (j : Fin 256) (k : Fin 128) :
    dot_S10000x128_S128x256_S10000x256_1_0_0_1_n_n.lhsIdx (ix2 i j) (cE2.symm k) = ix2 i k := by
  refine Shape.idx_ext₂ ?_ ?_
  · exact lhs2_0 _ _
  · exact (lhs2_1 _ _).trans (contrEquiv1_symm_val _ _ _ _ k)
theorem rhsIdx2_eq (i : Fin 10000) (j : Fin 256) (k : Fin 128) :
    dot_S10000x128_S128x256_S10000x256_1_0_0_1_n_n.rhsIdx (ix2 i j) (cE2.symm k) = ix2 k j := by
  refine Shape.idx_ext₂ ?_ ?_
  · exact (rhs2_0 _ _).trans (contrEquiv1_symm_val _ _ _ _ k)
  · exact rhs2_1 _ _

/-! ## The two products read at an index -/
/-- The first product at `(k, d)`: the sum over the nodes of the left block's column `k` against the right block's column `d`. -/
theorem prod1_apply (A X : FVec Ideal S10000x128 .bf16) (k d : Fin 128) :
    (matmul dot_S10000x128_S10000x128_S128x128_0_0_1_1_n_n none A X (constant S128x128 .f32 0x00000000#32) : FVec Ideal S128x128 .f32) (ix2 k d)
      = ∑ n : Fin 10000, A (ix2 n k) * X (ix2 n d) := by
  refine (Ideal.matmul_constant_zero_apply dot_S10000x128_S10000x128_S128x128_0_0_1_1_n_n none A X (ix2 k d)).trans ?_
  refine (Equiv.sum_comp cE1.symm _).symm.trans ?_
  refine Finset.sum_congr rfl fun n _ => ?_
  rw [lhsIdx1_eq, rhsIdx1_eq]

/-- The second product at `(i, j)`: the sum over the step's edges of the left block's row `i` against the right block's column `j`. -/
theorem prod2_apply (A : FVec Ideal S10000x128 .bf16) (B : FVec Ideal S128x256 .bf16) (i : Fin 10000) (j : Fin 256) :
    (matmul dot_S10000x128_S128x256_S10000x256_1_0_0_1_n_n none A B (constant S10000x256 .f32 0x00000000#32) : FVec Ideal S10000x256 .f32) (ix2 i j)
      = ∑ k : Fin 128, A (ix2 i k) * B (ix2 k j) := by
  refine (Ideal.matmul_constant_zero_apply dot_S10000x128_S128x256_S10000x256_1_0_0_1_n_n none A B (ix2 i j)).trans ?_
  refine (Equiv.sum_comp cE2.symm _).symm.trans ?_
  refine Finset.sum_congr rfl fun k _ => ?_
  rw [lhsIdx2_eq, rhsIdx2_eq]

/-- The first product narrowed to bf16 is the same sum: narrowing is the identity on the extended reals. -/
theorem prod1t_apply (A X : FVec Ideal S10000x128 .bf16) (k d : Fin 128) :
    (truncf .bf16 (matmul dot_S10000x128_S10000x128_S128x128_0_0_1_1_n_n none A X (constant S128x128 .f32 0x00000000#32)
      : FVec Ideal S128x128 .f32) bitsLt_bf16_f32 : FVec Ideal S128x128 .bf16) (ix2 k d)
      = ∑ n : Fin 10000, A (ix2 n k) * X (ix2 n d) :=
  prod1_apply A X k d

/-! ## The one-hot blocks and the constant one -/
/-- The comparison bit of two words, widened to a word and read as a signed number: `1` when they agree, `0` otherwise. -/
theorem bit_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    have e : IntOp.cmpi .eq a a = 1#1 := by simp [IntOp.cmpi]
    have e1 : ((1#1 : BitVec 1).setWidth 32).toInt = 1 := by decide
    rw [e, if_pos rfl, e1]; simp
  · have hb : (a == b) = false := beq_eq_false_iff_ne.mpr h
    have e : IntOp.cmpi .eq a b = 0#1 := by simp [IntOp.cmpi, hb]
    have e0 : ((0#1 : BitVec 1).setWidth 32).toInt = 0 := by decide
    rw [e, if_neg h, e0]; simp

/-- The one-hot block of the words `w` at `(n, k)`: the weight of word `k` at node `n`. -/
theorem ohBlk_apply (w : Vec Ideal S1x128 .i32) (n : Fin 10000) (k : Fin 128) :
    (truncf .bf16 (sitofp .f32 (extui 32 (cmpi .eq (iota .tc S10000x128 32 [0] iota_S10000x128_d0_w32)
      (broadcastTo S10000x128 (shapeCast S1x128 w shapeCasts_S1x128_S1x128) broadcasts_S1x128_S10000x128)) natLt_1_32)) bitsLt_bf16_f32
      : FVec Ideal S10000x128 .bf16) (ix2 n k) = oh (w (ix2 (0 : Fin 1) k)) n.val := by
  show (FloatOps.sitofp (F := Ideal) .f32 ((IntOp.cmpi .eq (iota .tc S10000x128 32 [0] iota_S10000x128_d0_w32 (ix2 n k))
    (broadcastTo S10000x128 (shapeCast S1x128 w shapeCasts_S1x128_S1x128) broadcasts_S1x128_S10000x128 (ix2 n k))).setWidth 32) : EReal) = _
  rw [bit_word, iota_single_apply, broadcastTo_1b_ab_apply, shapeCast_self]
  rfl

/-- The bf16 word `0x3F80` is the number one. -/
theorem one_bf16 : Ideal.ofBits .bf16 0x3F80#16 = 1 := by
  simp [Ideal.ofBits, Ideal.ieee]
  rw [← EReal.coe_mul]
  norm_num

/-! ## The block extended by columns of ones -/
/-- The extended block at a column below 128 is the first piece there. -/
theorem ext_apply_lt (M : FVec Ideal S128x128 .bf16) (c : Ideal .bf16) (k : Fin 128) (j : Fin 256) (h : j.val < 128) :
    (concatenate S128x256 1 [⟨S128x128, M⟩, ⟨S128x128, broadcast S128x128 c⟩] concatenates_S128x128_S128x128_S128x256_d1
      : FVec Ideal S128x256 .bf16) (ix2 k j) = M (ix2 k (⟨j.val, h⟩ : Fin 128)) := by
  refine concatenate_pair_apply_left (1 : Fin S128x256.rank) M _ _ (ix2 k j) rfl (ix2 k (⟨j.val, h⟩ : Fin 128)) fun b => ?_
  match b with
  | ⟨0, _⟩ => rfl
  | ⟨1, _⟩ => rfl

/-- The extended block at a column from 128 on is the constant of the second piece. -/
theorem ext_apply_ge (M : FVec Ideal S128x128 .bf16) (c : Ideal .bf16) (k : Fin 128) (j : Fin 256) (h : ¬ j.val < 128) :
    (concatenate S128x256 1 [⟨S128x128, M⟩, ⟨S128x128, broadcast S128x128 c⟩] concatenates_S128x128_S128x128_S128x256_d1
      : FVec Ideal S128x256 .bf16) (ix2 k j) = c := by
  refine (concatenate_pair_apply_right (1 : Fin S128x256.rank) M (broadcast S128x128 c) _ (ix2 k j) rfl rfl
    (ix2 k (⟨j.val - 128, by have := j.isLt; omega⟩ : Fin 128)) (fun b hb => ?_) ?_).trans rfl
  · match b, hb with
    | ⟨0, _⟩, _ => rfl
    | ⟨1, _⟩, hb => exact absurd rfl hb
  · show (j.val - 128) + 128 = j.val
    omega

/-! ## The payloads -/
/-- The zero block is zero everywhere. -/
theorem pay1_apply (y : S10000x256.Idx) : k0_pay1 (F := Ideal) y = 0 := by
  unfold k0_pay1
  exact Ideal.ofBits_zero_f32

/-- The payload at `(i, j)`: the accumulator there plus the step's contribution. -/
theorem pay2_apply (v3 v5 : Vec Ideal S1x128 .i32) (v18 : Vec Ideal S10000x128 .bf16) (v25 : Vec Ideal S10000x256 .f32)
    (i : Fin 10000) (j : Fin 256) :
    k0_pay2 (F := Ideal) v3 v5 v18 v25 (ix2 i j) = v25 (ix2 i j) + part v3 v5 v18 i j := by
  unfold k0_pay2
  refine (addf_apply _ _ _).trans ?_
  refine congrArg₂ (· + ·) (congrFun (shapeCast_self v25 _) _) ?_
  refine (prod2_apply _ _ i j).trans ?_
  unfold part
  refine Finset.sum_congr rfl fun k _ => ?_
  refine congrArg₂ (· * ·) (ohBlk_apply v5 i k) ?_
  by_cases h : j.val < 128
  · rw [dif_pos h]
    refine (ext_apply_lt _ _ k j h).trans ?_
    refine (prod1t_apply _ _ k ⟨j.val, h⟩).trans ?_
    refine Finset.sum_congr rfl fun n _ => ?_
    exact congrArg₂ (· * ·) (ohBlk_apply v3 n k) (congrFun (shapeCast_self v18 _) _)
  · rw [dif_neg h]
    exact (ext_apply_ge _ _ k j h).trans one_bf16

end Cert.KernelIdeal.SegMeanValue

end
-- ==== Proof.KernelAcc.lean ====
/-
  The array the region leaves: the accumulated array of the specification.

  The region's three inputs are the feature table (narrowing a float is the identity on the extended reals) and the source
  and destination rows of the edge list, each re-laid as one row of 640000 words; grid step `t` reads words
  `128 t … 128 t + 127` of each. A step's contribution at node `i` is the sum, over those of its 128 edges that land on
  `i`, of the edge's weight: a one-hot weighted sum over the nodes picks the source node's feature when the source word
  names a node. The output block is carried from step to step — zero plus the first contribution, then each later
  contribution added — so after the last step it holds the sum over all 5000 steps, which is the sum over all 640000
  edges, block by block; it is written back once, after the last step, and the block is the whole array.
-/
import proofs.«419609_j9698036155133_1_alg».proof.Proof.KernelPieces
import proofs.«419609_j9698036155133_1_alg».proof.Proof.KernelPayload
import proofs.«419609_j9698036155133_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.SegMeanValue

open Cert.KernelIdeal Cert.KernelIdeal.Gen Cert.SegMean
open Idealize.ShloMosaic.Pipeline (Dat)

variable (m : (ℓ : Loc nD τ sig) → Buf (Elt Ideal) ℓ)

/-- The feature argument and the edge-list argument on core `c`. -/
abbrev xarr (c : Dev nD) : FVec Ideal S10000x128 .f32 := m ((c.tc : Thread nD τ).loc main_arg0)
abbrev earr (c : Dev nD) : IVec S2x640000 32 := m ((c.tc : Thread nD τ).loc main_arg1)

/-! ## What the region finds in its input arrays -/

/-- The feature table the region reads is the argument itself: narrowing is the identity on the extended reals. -/
theorem V_v6 (c : Dev nD) : (V m c main_v6 : S10000x128.Idx → EReal) = xarr m c := by
  show StableHlo.after hostOps0 (fun b => m (c, b)) (Proc.devRef .tc main_v6) = _
  after_results
  rfl

/-- The source row as the region reads it: row 1 of the edge list, re-laid flat and back to one row. -/
theorem V_v4 (c : Dev nD) : (V m c main_v4 : S1x640000.Idx → BitVec 32)
    = shapeCast S1x640000 (shapeCast S640000 (extractStridedSlice S1x640000 ![1, 0] (earr m c) slices_S2x640000_S1x640000_1_0)
        shapeCasts_S1x640000_S640000) shapeCasts_S640000_S1x640000 := by
  show StableHlo.after hostOps0 (fun b => m (c, b)) (Proc.devRef .tc main_v4) = _
  after_results
  rfl

/-- The destination row as the region reads it: row 0 of the edge list, likewise. -/
theorem V_v5 (c : Dev nD) : (V m c main_v5 : S1x640000.Idx → BitVec 32)
    = shapeCast S1x640000 (shapeCast S640000 (extractStridedSlice S1x640000 ![0, 0] (earr m c) slices_S2x640000_S1x640000_0_0)
        shapeCasts_S1x640000_S640000) shapeCasts_S640000_S1x640000 := by
  show StableHlo.after hostOps0 (fun b => m (c, b)) (Proc.devRef .tc main_v5) = _
  after_results
  rfl

/-- The source row the region reads is row 1 of the edge list; the destination row is row 0. -/
theorem V_v4' (c : Dev nD) : (V m c main_v4 : S1x640000.Idx → BitVec 32)
    = extractStridedSlice S1x640000 ![1, 0] (earr m c) slices_S2x640000_S1x640000_1_0 :=
  (V_v4 m c).trans (shapeCast_shapeCast _ _ _)
theorem V_v5' (c : Dev nD) : (V m c main_v5 : S1x640000.Idx → BitVec 32)
    = extractStridedSlice S1x640000 ![0, 0] (earr m c) slices_S2x640000_S1x640000_0_0 :=
  (V_v5 m c).trans (shapeCast_shapeCast _ _ _)

/-! ## The blocks a grid step reads -/

/-- Step `t` reads block `(0, t)` of each edge row, and the one block of the feature table. -/
theorem widx1 : ∀ t : Fin cfg0.N, win0_1.index t (0 : Fin 2) = 0 ∧ win0_1.index t (1 : Fin 2) = t.val :=
  (by decide +kernel : ∀ t : Fin grid0.N, _)
theorem widx2 : ∀ t : Fin cfg0.N, win0_2.index t (0 : Fin 2) = 0 ∧ win0_2.index t (1 : Fin 2) = t.val :=
  (by decide +kernel : ∀ t : Fin grid0.N, _)
theorem widx0 : ∀ t : Fin cfg0.N, win0_0.index t (0 : Fin 2) = 0 ∧ win0_0.index t (1 : Fin 2) = 0 :=
  (by decide +kernel : ∀ t : Fin grid0.N, _)

/-- Word `k` of step `t`'s source block is the source word of edge `128 t + k`. -/
theorem rowblk (c : Dev nD) (t : Fin cfg0.N) (k : Fin 128) (hlt : 128 * t.val + k.val < 640000) :
    (iblk m c 1 t : Vec Ideal S1x128 .i32) (ix2 (0 : Fin 1) k) = src (earr m c) ⟨128 * t.val + k.val, hlt⟩ := by
  unfold iblk
  rw [View.read_apply]
  show V m c main_v4 (((cfg0.win 1).blk t).view.emb (ix2 (0 : Fin 1) k)) = _
  rw [V_v4']
  refine extractStridedSlice_apply _ _ _ _ (ix2 (1 : Fin 2) ⟨128 * t.val + k.val, hlt⟩) (fun a => ?_)
  match a with
  | ⟨0, _⟩ => show 1 = 1 + (win0_1.index t 0 * 1 + 1 * 0); rw [(widx1 t).1]
  | ⟨1, _⟩ => show 128 * t.val + k.val = 0 + (win0_1.index t 1 * 128 + 1 * k.val); rw [(widx1 t).2]; omega

/-- Word `k` of step `t`'s destination block is the destination word of edge `128 t + k`. -/
theorem colblk (c : Dev nD) (t : Fin cfg0.N) (k : Fin 128) (hlt : 128 * t.val + k.val < 640000) :
    (iblk m c 2 t : Vec Ideal S1x128 .i32) (ix2 (0 : Fin 1) k) = dst (earr m c) ⟨128 * t.val + k.val, hlt⟩ := by
  unfold iblk
  rw [View.read_apply]
  show V m c main_v5 (((cfg0.win 2).blk t).view.emb (ix2 (0 : Fin 1) k)) = _
  rw [V_v5']
  refine extractStridedSlice_apply _ _ _ _ (ix2 (0 : Fin 2) ⟨128 * t.val + k.val, hlt⟩) (fun a => ?_)
  match a with
  | ⟨0, _⟩ => show 0 = 0 + (win0_2.index t 0 * 1 + 1 * 0); rw [(widx2 t).1]
  | ⟨1, _⟩ => show 128 * t.val + k.val = 0 + (win0_2.index t 1 * 128 + 1 * k.val); rw [(widx2 t).2]; omega

/-- Every step's feature block is the whole feature table. -/
theorem xblk (c : Dev nD) (t : Fin cfg0.N) (n : Fin 10000) (d : Fin 128) :
    (iblk m c 0 t : Vec Ideal S10000x128 .bf16) (ix2 n d) = xarr m c (ix2 n d) := by
  unfold iblk
  rw [View.read_apply]
  show V m c main_v6 (((cfg0.win 0).blk t).view.emb (ix2 n d)) = _
  rw [V_v6]
  refine congrArg (xarr m c) (funext fun a => Fin.ext ?_)
  match a with
  | ⟨0, _⟩ => show win0_0.index t 0 * 10000 + 1 * n.val = n.val; rw [(widx0 t).1]; omega
  | ⟨1, _⟩ => show win0_0.index t 1 * 128 + 1 * d.val = d.val; rw [(widx0 t).2]; omega

/-! ## One step's contribution, in the specification's terms -/

/-- The word of a number below the node count equals `w` exactly when the number is `w` read unsigned. -/
theorem ofNat_eq_iff (w : BitVec 32) (n : ℕ) (hn : n < 10000) : BitVec.ofNat 32 n = w ↔ n = w.toNat := by
  constructor
  · rintro rfl
    rw [BitVec.toNat_ofNat]
    exact (Nat.mod_eq_of_lt (by omega)).symm
  · intro h
    apply BitVec.eq_of_toNat_eq
    rw [BitVec.toNat_ofNat, ← h]
    exact Nat.mod_eq_of_lt (by omega)

/-- Edge `128 t + k`, the `k`-th edge of step `t`. -/
def edgeOf (t : Fin cfg0.N) (k : Fin 128) : Fin 640000 :=
  ⟨128 * t.val + k.val, by have hN : cfg0.N = 5000 := N_0; have := t.isLt; have := k.isLt; omega⟩

/-- Step `t` contributes, at node `i` and column `j`, the weights of those of its 128 edges that land on `i` — given
    that every source word names a node, so that the one-hot sum over the nodes picks the source node's feature. -/
theorem part_blk (c : Dev nD) (hrow : ∀ e : Fin 640000, (src (earr m c) e).toNat < 10000) (t : Fin cfg0.N)
    (i : Fin 10000) (j : Fin 256) :
    part (iblk m c 1 t) (iblk m c 2 t) (iblk m c 0 t) i j
      = ∑ k : Fin 128, if Lands (earr m c) i (edgeOf t k) then wgt (xarr m c) (earr m c) (edgeOf t k) j else 0 := by
  unfold part
  refine Finset.sum_congr rfl fun k _ => ?_
  rw [colblk m c t k (edgeOf t k).isLt]
  by_cases hL : Lands (earr m c) i (edgeOf t k)
  · rw [if_pos hL]
    have hoh : oh (dst (earr m c) (edgeOf t k)) i.val = 1 := by unfold oh; exact if_pos hL.symm
    rw [show (⟨128 * t.val + k.val, (edgeOf t k).isLt⟩ : Fin 640000) = edgeOf t k from rfl, hoh, one_mul]
    unfold wgt
    by_cases hj : j.val < 128
    · rw [dif_pos hj, dif_pos hj]
      have hsum : ∀ n : Fin 10000, oh ((iblk m c 1 t : Vec Ideal S1x128 .i32) (ix2 (0 : Fin 1) k)) n.val
            * (iblk m c 0 t : Vec Ideal S10000x128 .bf16) (ix2 n (⟨j.val, hj⟩ : Fin 128))
          = (if n = (⟨(src (earr m c) (edgeOf t k)).toNat, hrow _⟩ : Fin 10000) then (1 : EReal) else 0)
            * xarr m c (ix2 n (⟨j.val, hj⟩ : Fin 128)) := fun n => by
        rw [rowblk m c t k (edgeOf t k).isLt, xblk m c t n ⟨j.val, hj⟩]
        congr 1
        unfold oh
        refine if_congr ?_ rfl rfl
        rw [ofNat_eq_iff _ _ n.isLt]
        exact ⟨fun h => Fin.ext h, fun h => congrArg Fin.val h⟩
      rw [Finset.sum_congr rfl fun n _ => hsum n, sum_onehot_mul]
      refine congrArg (xarr m c) (congrArg (fun a => ix2 a (⟨j.val, hj⟩ : Fin 128)) (Fin.ext ?_))
      show (src (earr m c) (edgeOf t k)).toNat = min (src (earr m c) (edgeOf t k)).toNat 9999
      have := hrow (edgeOf t k)
      omega
    · rw [dif_neg hj, dif_neg hj]
  · rw [if_neg hL]
    have hoh : oh (dst (earr m c) (edgeOf t k)) i.val = 0 := by unfold oh; exact if_neg fun h => hL h.symm
    rw [show (⟨128 * t.val + k.val, (edgeOf t k).isLt⟩ : Fin 640000) = edgeOf t k from rfl, hoh, zero_mul]

/-! ## The carried block after each step -/

/-- Step `t`'s contribution at `(i, j)`, for any natural `t` (zero past the grid). -/
def stepAt (c : Dev nD) (i : Fin 10000) (j : Fin 256) (t : ℕ) : EReal :=
  if ht : t < cfg0.N then part (iblk m c 1 ⟨t, ht⟩) (iblk m c 2 ⟨t, ht⟩) (iblk m c 0 ⟨t, ht⟩) i j else 0

/-- After step `n` the carried output block holds the sum of the contributions of steps `0 … n`: zero plus the first
    at the first step, the previous block plus the step's at every later one. -/
theorem outsAt_eq (c : Dev nD) (i : Fin 10000) (j : Fin 256) : ∀ (n : ℕ) (h : n < cfg0.N),
    (outsAt0 m c n h : Vec Ideal S10000x256 .f32) (ix2 i j) = ∑ t ∈ Finset.range (n + 1), stepAt m c i j t
  | 0, h => by
    have e := (outsAt0_A m c ⟨0, h⟩ rfl).trans
      (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩) (iblk m c 2 ⟨0, h⟩))
    refine (congrFun e (ix2 i j)).trans ?_
    rw [pay2_apply, pay1_apply, zero_add, Finset.sum_range_one]
    unfold stepAt
    rw [dif_pos h]
  | n + 1, h => by
    have hN : cfg0.N = 5000 := N_0
    have hB : ¬(⟨n + 1, h⟩ : Fin cfg0.N).val % 5000 = 0 := by dsimp only; omega
    have e := (outsAt0_B m c ⟨n + 1, h⟩ hB).trans
      (out_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (fun hc => hB ((hcond0_0 ⟨n + 1, h⟩).mp hc))
        (iblk m c 0 ⟨n + 1, h⟩) (iblk m c 1 ⟨n + 1, h⟩) (iblk m c 2 ⟨n + 1, h⟩)
        (outsAt0 m c ((⟨n + 1, h⟩ : Fin cfg0.N).val - 1) (Nat.lt_of_le_of_lt (Nat.sub_le _ _) (⟨n + 1, h⟩ : Fin cfg0.N).isLt)))
    refine (congrFun e (ix2 i j)).trans ?_
    rw [pay2_apply]
    show (outsAt0 m c n _ : Vec Ideal S10000x256 .f32) (ix2 i j) + _ = _
    rw [outsAt_eq c i j n (Nat.lt_of_succ_lt h), Finset.sum_range_succ _ (n + 1)]
    congr 1
    unfold stepAt
    rw [dif_pos h]

end Cert.KernelIdeal.SegMeanValue

end
-- ==== Proof.KernelFinal.lean ====
/-
  The array the region leaves is the accumulated array of the specification.

  The output window's block never moves and is the whole array, so it is written back once, after the last grid step,
  and what is written is the block carried through all 5000 steps: the sum of their contributions. Summing the
  contributions of 5000 steps of 128 edges each is summing over all 640000 edges in blocks of 128.
-/
import proofs.«419609_j9698036155133_1_alg».proof.Proof.KernelAcc

noncomputable section

open Idealize.ShloMosaic Idealize.ShloMosaic.TcCoe Idealize.SL.Sem Idealize.ShloMosaic.ValueIdx

namespace Cert.KernelIdeal.SegMeanValue

open Cert.KernelIdeal Cert.KernelIdeal.Gen Cert.SegMean
open Idealize.ShloMosaic.Pipeline (Dat)

variable (m : (ℓ : Loc nD τ sig) → Buf (Elt Ideal) ℓ)

/-- At every grid point the output window's block index is (0, 0) and its extents are the array's. -/
theorem widx3 : ∀ t : Fin cfg0.N, win0_3.index t (0 : Fin 2) = 0 ∧ win0_3.index t (1 : Fin 2) = 0 :=
  (by decide +kernel : ∀ t : Fin grid0.N, _)
theorem xsz3 : ∀ t : Fin cfg0.N, win0_3.xsize (grid0.coords t) (0 : Fin 2) = 10000 ∧ win0_3.xsize (grid0.coords t) (1 : Fin 2) = 256 :=
  (by decide +kernel : ∀ t : Fin grid0.N, _)

/-- So at every grid point the output block holds every index of the array. -/
theorem mem_blk3 (t : Fin cfg0.N) (i : S10000x256.Idx) : i ∈ ((cfg0.win 3).blk t).view.set := by
  show i ∈ ((View.whole main_v7).slice (win0_3.rect t)).set
  rw [View.set_slice_whole, Rect.mem_set_unit]
  intro a
  have h0 : (i 0 : Nat) < 10000 := (i 0).isLt
  have h1 : (i 1 : Nat) < 256 := (i 1).isLt
  match a with
  | ⟨0, _⟩ =>
    show win0_3.index t 0 * win0_3.size 0 ≤ (i 0 : Nat) ∧ (i 0 : Nat) < win0_3.index t 0 * win0_3.size 0 + win0_3.xsize (grid0.coords t) 0
    rw [(widx3 t).1, (xsz3 t).1]; omega
  | ⟨1, _⟩ =>
    show win0_3.index t 1 * win0_3.size 1 ≤ (i 1 : Nat) ∧ (i 1 : Nat) < win0_3.index t 1 * win0_3.size 1 + win0_3.xsize (grid0.coords t) 1
    rw [(widx3 t).2, (xsz3 t).2]; omega

/-- What a write-back at point `t` would write: the block the body left there, read at zero offsets — itself. -/
theorem flushed_at (c : Dev nD) (t : Fin cfg0.N) :
    (dats m 0 c).flushed 3 t = ((cfg0.win 3).blk t).view.read (Elt Ideal) (outsAt0 m c t.val t.isLt) := by
  show (cfg0.win 3).cut (grid0.coords t) ((dats m 0 c).after 3 t) = _
  rw [after0_3]
  have hz' : (fun a => win0_3.index t a * main_v7.ty.shape.size a) = fun _ => 0 := funext fun a => by
    match a with
    | ⟨0, _⟩ => show win0_3.index t 0 * _ = 0; rw [(widx3 t).1, Nat.zero_mul]
    | ⟨1, _⟩ => show win0_3.index t 1 * _ = 0; rw [(widx3 t).2, Nat.zero_mul]
  exact (Memref.read_access_unit_zero (Elt Ideal) main_v7 hz' (fun a => by rw [congrFun hz' a]; simp) (outsAt0 m c t.val t.isLt)).symm

/-- The carried block depends on the point's number only. -/
theorem outsAt0_congr (c : Dev nD) {n n' : ℕ} (h : n = n') (hn : n < cfg0.N) (hn' : n' < cfg0.N) :
    outsAt0 m c n hn = outsAt0 m c n' hn' := by subst h; rfl

/-- The number of the last grid point is in range. -/
theorem last_lt : 4999 < cfg0.N := by have hN : cfg0.N = 5000 := N_0; omega

/-- The carried block after the last step. -/
abbrev lastBlk (c : Dev nD) : FVec Ideal S10000x256 .f32 := outsAt0 m c 4999 last_lt

/-- The write-back happens after the last step only, and writes the block carried through every step. -/
theorem flushed_eq (c : Dev nD) (t : Fin cfg0.N) (hf : (cfg0.win 3).flush t = true) :
    (dats m 0 c).flushed 3 t = ((cfg0.win 3).blk t).view.read (Elt Ideal) (lastBlk m c) := by
  have hN : cfg0.N = 5000 := N_0
  have h3 : t.val = 4999 := by have := (flush0_3 t).mp hf; have := t.isLt; omega
  rw [flushed_at, outsAt0_congr m c h3 t.isLt last_lt]

/-- So the output array ends holding that block. -/
theorem final_blk (c : Dev nD) : (dats m 0 c).arrAt 3 cfg0.N = lastBlk m c :=
  (dats m 0 c).arrAt_eq_of_cover 3 (lastBlk m c) (flushed_eq m c) fun i =>
    ⟨⟨4999, last_lt⟩, (flush0_3 ⟨4999, last_lt⟩).mpr rfl, mem_blk3 ⟨4999, last_lt⟩ i⟩

/-- THE ACCUMULATED ARRAY. The array the region leaves is the specification's: at `(i, j)` the sum over the 5000 steps
    of their contributions is the sum over all edges landing on `i` of their weights in column `j`, the edges taken in
    blocks of 128. -/
theorem final_acc (c : Dev nD) (hrow : ∀ e : Fin 640000, (src (earr m c) e).toNat < 10000) :
    (dats m 0 c).arrAt 3 cfg0.N = accArr (xarr m c) (earr m c) := by
  rw [final_blk]
  funext y
  obtain ⟨i, j, rfl⟩ : ∃ (i : Fin 10000) (j : Fin 256), y = ix2 i j := ⟨y 0, y 1, eq_ix2 y⟩
  rw [accArr_ix2]
  refine (outsAt_eq m c i j 4999 last_lt).trans ?_
  show ∑ t ∈ Finset.range 5000, stepAt m c i j t = _
  rw [Finset.sum_range]
  unfold acc
  rw [Finset.sum_filter, sum_blocks 5000 128 640000 rfl]
  refine Finset.sum_congr rfl fun t _ => ?_
  have ht : t.val < cfg0.N := by have hN : cfg0.N = 5000 := N_0; have := t.isLt; omega
  unfold stepAt
  rw [dif_pos ht, part_blk m c hrow ⟨t.val, ht⟩ i j]
  rfl

end Cert.KernelIdeal.SegMeanValue

end
-- ==== Proof.KernelTail.lean ====
/-
  The host operations after the region, as one function of the accumulated array `A` and the features `x`, and the
  kernel program's run with its result named.

  The tail slices the first 128 columns of `A` and column 128 (the in-degree), divides the former by `max degree 1`, and
  multiplies `x` by the indicator of a positive degree; the result is the two halves side by side.
-/
import proofs.«419609_j9698036155133_1_alg».proof.Proof.Gen.KernelIdeal.Frame
import proofs.«419609_j9698036155133_1_alg».proof.Proof.Spec
import Idealize.ShloMosaic.PureOps.Ideal.Laws
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.SegMeanValue

open Cert.KernelIdeal Cert.KernelIdeal.Gen
open Idealize.ShloMosaic.Pipeline (Dat)

/-- The host tail: the operations after the region applied to the accumulated array `A` and the features `x`. -/
def tailVal (A : FVec Ideal S10000x256 .f32) (x : FVec Ideal S10000x128 .f32) : FVec Ideal S10000x256 .f32 :=
  let v8 : FVec Ideal S10000x128 .f32 := extractStridedSlice S10000x128 ![0, 0] A slices_S10000x256_S10000x128_0_0
  let v9 : FVec Ideal S10000x1 .f32 := extractStridedSlice S10000x1 ![0, 128] A slices_S10000x256_S10000x1_0_128
  let v10 : FVec Ideal S10000x1 .f32 := broadcastInDim S10000x1 ![] bcast_S_S10000x1 (constant (F := Ideal) S_ .f32 0x3F800000#32)
  let v11 : FVec Ideal S10000x1 .f32 := maximumf v9 v10
  let v12 : FVec Ideal S10000x128 .f32 := broadcastInDim S10000x128 ![0, 1] bcast_S10000x1_S10000x128_0_1 v11
  let v13 : FVec Ideal S10000x128 .f32 := Host.divf (F := Ideal) v8 v12
  let v14 : FVec Ideal S10000x1 .f32 := broadcastInDim S10000x1 ![] bcast_S_S10000x1 (constant (F := Ideal) S_ .f32 0x00000000#32)
  let v15 : IVec S10000x1 1 := cmpf .ogt v9 v14
  let v16 : FVec Ideal S10000x1 .f32 := uitofp .f32 v15
  let v17 : FVec Ideal S10000x128 .f32 := broadcastInDim S10000x128 ![0, 1] bcast_S10000x1_S10000x128_0_1 v16
  let v18 : FVec Ideal S10000x128 .f32 := mulf x v17
  concatenate S10000x256 1 [⟨S10000x128, v13⟩, ⟨S10000x128, v18⟩] concatenates_S10000x128_S10000x128_S10000x256_d1

/-- The word of one. -/
theorem ofBits_one_f32 : Ideal.ofBits .f32 0x3F800000#32 = (1 : EReal) := by
  simp [Ideal.ofBits, Ideal.ieee, -EReal.coe_mul]; norm_num

/-- The first 128 columns read at `(i, j)`. -/
theorem sliceL_apply (A : FVec Ideal S10000x256 .f32) (i : Fin 10000) (j : Fin 128) :
    extractStridedSlice S10000x128 ![0, 0] A slices_S10000x256_S10000x128_0_0 (ix2 i j)
      = A (ix2 i (⟨j.val, by have := j.isLt; omega⟩ : Fin 256)) :=
  extractStridedSlice_apply ![0, 0] A slices_S10000x256_S10000x128_0_0 (ix2 i j) _ (fun a => match a with
    | ⟨0, _⟩ => by show i.val = 0 + i.val; omega
    | ⟨1, _⟩ => by show j.val = 0 + j.val; omega)

/-- Column 128 read at row `i`. -/
theorem sliceD_apply (A : FVec Ideal S10000x256 .f32) (i : Fin 10000) (z : Fin 1) :
    extractStridedSlice S10000x1 ![0, 128] A slices_S10000x256_S10000x1_0_128 (ix2 i z)
      = A (ix2 i (128 : Fin 256)) :=
  extractStridedSlice_apply ![0, 128] A slices_S10000x256_S10000x1_0_128 (ix2 i z) _ (fun a => match a with
    | ⟨0, _⟩ => by show i.val = 0 + i.val; omega
    | ⟨1, _⟩ => by
      have hz : z.val = 0 := by have := z.isLt; omega
      show (128 : Fin 256).val = 128 + z.val
      rw [hz]; rfl)

/-- A scalar spread over a column reads the scalar everywhere. -/
theorem bcastC_apply (c : FVec Ideal S_ .f32) (y : S10000x1.Idx) :
    broadcastInDim S10000x1 ![] bcast_S_S10000x1 c y = c ix0 :=
  broadcastInDim_apply _ bcast_S_S10000x1 c y ix0 (fun a => a.elim0)

/-- A column spread over 128 columns reads the column at the row. -/
theorem bcastR_apply (v : FVec Ideal S10000x1 .f32) (i : Fin 10000) (j : Fin 128) :
    broadcastInDim S10000x128 ![0, 1] bcast_S10000x1_S10000x128_0_1 v (ix2 i j) = v (ix2 i (0 : Fin 1)) :=
  broadcastInDim_apply _ bcast_S10000x1_S10000x128_0_1 v (ix2 i j) (ix2 i (0 : Fin 1)) (fun a => match a with
    | ⟨0, _⟩ => by show i.val = if (10000 : Nat) = 1 then 0 else i.val; rw [if_neg (by decide)]
    | ⟨1, _⟩ => by show 0 = if (1 : Nat) = 1 then 0 else j.val; rw [if_pos rfl])

/-- The host quotient read at an index. -/
theorem hostDivf_apply {s : Shape} {φ : FTy} (a b : FVec Ideal s φ) (k : s.Idx) :
    Host.divf (F := Ideal) a b k = Ideal.div (a k) (b k) := rfl

/-- An unsigned word as a float, read at an index. -/
theorem uitofp_apply {s : Shape} {w : Nat} (v : IVec s w) (k : s.Idx) :
    (uitofp .f32 v : FVec Ideal s .f32) k = (((v k).toNat : ℝ) : EReal) := rfl

/-- "Greater than zero" as a one-bit word, read as a number: the indicator. -/
theorem gt_zero_toNat (a : EReal) :
    ((((Ideal.cmp .ogt a 0).toNat : ℕ) : ℝ) : EReal) = if 0 < a then (1 : EReal) else 0 := by
  unfold Ideal.cmp
  by_cases h : 0 < a
  · simp [h]
  · simp [h]

/-- The tail's first half: column `j < 128` of row `i`. -/
theorem tailVal_left (A : FVec Ideal S10000x256 .f32) (x : FVec Ideal S10000x128 .f32) (i : Fin 10000) (j : Fin 256)
    (h : j.val < 128) :
    tailVal A x (ix2 i j) = Ideal.div (A (ix2 i j)) (max (A (ix2 i (128 : Fin 256))) 1) := by
  unfold tailVal
  have hc := fun (x₁ x₂ : FVec Ideal S10000x128 .f32) =>
    concatenate_pair_apply_left (t := S10000x256) (s₁ := S10000x128) (s₂ := S10000x128) (1 : Fin 2) x₁ x₂
      concatenates_S10000x128_S10000x128_S10000x256_d1 (ix2 i j) rfl
      (ix2 i (⟨j.val, h⟩ : Fin 128)) (fun b => match b with
        | ⟨0, _⟩ => rfl
        | ⟨1, _⟩ => rfl)
  refine (hc _ _).trans ?_
  rw [hostDivf_apply, sliceL_apply, bcastR_apply, maximumf_apply, sliceD_apply, bcastC_apply, constant_apply,
    ofBits_one_f32]

/-- The tail's second half: column `j ≥ 128` of row `i`. -/
theorem tailVal_right (A : FVec Ideal S10000x256 .f32) (x : FVec Ideal S10000x128 .f32) (i : Fin 10000) (j : Fin 256)
    (h : ¬ j.val < 128) :
    tailVal A x (ix2 i j) = x (ix2 i (⟨j.val - 128, by have := j.isLt; omega⟩ : Fin 128)) *
        (if 0 < A (ix2 i (128 : Fin 256)) then (1 : EReal) else 0) := by
  unfold tailVal
  have hc := fun (x₁ x₂ : FVec Ideal S10000x128 .f32) =>
    concatenate_pair_apply_right (t := S10000x256) (s₁ := S10000x128) (s₂ := S10000x128) (1 : Fin 2) x₁ x₂
      concatenates_S10000x128_S10000x128_S10000x256_d1 (ix2 i j) rfl rfl
      (ix2 i (⟨j.val - 128, by have := j.isLt; omega⟩ : Fin 128)) (fun b => match b with
        | ⟨0, _⟩ => fun _ => rfl
        | ⟨1, _⟩ => fun hb => absurd rfl hb)
      (by show (j.val - 128) + 128 = j.val; omega)
  refine (hc _ _).trans ?_
  rw [mulf_apply, bcastR_apply, uitofp_apply, cmpf_apply, sliceD_apply, bcastC_apply, constant_apply,
    Ideal.ofBits_zero_f32]
  exact congrArg _ (gt_zero_toNat _)

/-- The tail at `(i, j)`: the first 128 columns are `A[i, j] / max A[i, 128] 1`, the last 128 are `x[i, j - 128]` times
    the indicator of `A[i, 128] > 0`. -/
theorem tailVal_apply (A : FVec Ideal S10000x256 .f32) (x : FVec Ideal S10000x128 .f32) (i : Fin 10000) (j : Fin 256) :
    tailVal A x (ix2 i j) =
      if h : j.val < 128 then Ideal.div (A (ix2 i j)) (max (A (ix2 i (128 : Fin 256))) 1)
      else x (ix2 i (⟨j.val - 128, by have := j.isLt; omega⟩ : Fin 128)) *
        (if 0 < A (ix2 i (128 : Fin 256)) then (1 : EReal) else 0) := by
  by_cases h : j.val < 128
  · rw [dif_pos h]; exact tailVal_left A x i j h
  · rw [dif_neg h]; exact tailVal_right A x i j h

/-- After the region the result buffer holds the host tail of the output array and of the features as launched. -/
theorem tail_eq (m : (ℓ : Loc nD τ sig) → Buf (Elt Ideal) ℓ) (c : Dev nD) :
    Pipeline.afterTail₀ cfgs (dats m) 0 (V0 m) [hostOps1] c main_v19
      = tailVal ((dats m 0 c).arrAt 3 cfg0.N) (m ((c.tc : Thread nD τ).loc main_arg0)) := by
  unfold Pipeline.afterTail₀
  show StableHlo.after hostOps1 _ (Proc.devRef .tc main_v19) = _
  after_results
  have h7 : Pipeline.withArrays (cfgs 0).spec c (V0 m c) (fun w => (dats m 0 c).arrAt w (cfgs 0).N) (Proc.devRef .tc main_v7)
      = (dats m 0 c).arrAt 3 cfg0.N := Pipeline.withArrays_arr spec0 launch0.win.arr_inj c _ _ 3
  have h0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0
      (by exact (by decide : ∀ w, Pipeline.arrRef spec0 w ≠ main_arg0))).trans (V_main_arg0 m c)
  rw [h7, h0]
  rfl

/-- The kernel program's run: from any memory, every weakly fair execution ends with the result at the host tail of
    the output array the region leaves (`A c`, whatever it is shown to be) and of the features, the arguments unchanged. -/
theorem run_value (m : (ℓ : Loc nD τ sig) → Buf (Elt Ideal) ℓ) (ρ : Dev nD → PrngReg)
    (A : Dev nD → FVec Ideal S10000x256 .f32) (hA : ∀ c, (dats m 0 c).arrAt 3 cfg0.N = A c) :
    θ_run defs (onTc (τ := τ) (main (F := Ideal))) ⟨m, fun _ => 0, ρ⟩ (fun r => ∀ c : Dev nD,
      r.2.mem ((c.tc : Thread nD τ).loc main_v19) = tailVal (A c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main m ρ)
  · exact ((h c).2 main_v19 (Pipeline.mem_restRefs_of main_v19 (by decide) (by decide))).trans
      ((tail_eq m c).trans (by rw [hA c]))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.SegMeanValue

end
-- ==== Proof.KernelValue.lean ====
/-
  The kernel program computes the specification's function.

  The host operations after the region, applied to the accumulated array, divide its first 128 columns by
  `max (column 128) 1` and multiply the features by the indicator of column 128 being positive. Column 128 of the
  accumulated array is the in-degree, a natural number, which is positive as an extended real exactly when it is positive.
-/
import proofs.«419609_j9698036155133_1_alg».proof.Proof.KernelFinal
import proofs.«419609_j9698036155133_1_alg».proof.Proof.KernelTail

noncomputable section

open Idealize.ShloMosaic Idealize.ShloMosaic.TcCoe Idealize.SL.Sem Idealize.ShloMosaic.ValueIdx

namespace Cert.KernelIdeal.SegMeanValue

open Cert.KernelIdeal Cert.KernelIdeal.Gen Cert.SegMean

/-- The host tail of the accumulated array is the result. -/
theorem tail_acc (x : FVec Ideal S10000x128 .f32) (es : IVec S2x640000 32) : tailVal (accArr x es) x = G x es := by
  funext y
  obtain ⟨i, j, rfl⟩ : ∃ (i : Fin 10000) (j : Fin 256), y = ix2 i j := ⟨y 0, y 1, eq_ix2 y⟩
  rw [tailVal_apply, G_ix2, accArr_ix2, accArr_ix2, acc_count x es i (128 : Fin 256) (by decide)]
  unfold Gat
  by_cases hj : j.val < 128
  · rw [dif_pos hj, dif_pos hj]
  · have hind : (if 0 < degE es i then (1 : EReal) else 0) = (if 0 < deg es i then (1 : EReal) else 0) := by
      refine if_congr ?_ rfl rfl
      unfold degE
      rw [← EReal.coe_zero, EReal.coe_lt_coe_iff, Nat.cast_pos]
    rw [dif_neg hj, dif_neg hj, hind]

/-- THE KERNEL'S RUN: from any memory whose source words name nodes, every weakly fair execution ends with the result at
    the specification's function of the arguments, the arguments unchanged. -/
theorem run (m : (ℓ : Loc nD τ sig) → Buf (Elt Ideal) ℓ) (ρ : Dev nD → PrngReg)
    (hrow : ∀ (c : Dev nD) (e : Fin 640000), (src (earr m c) e).toNat < 10000) :
    θ_run defs (onTc (τ := τ) (main (F := Ideal))) ⟨m, fun _ => 0, ρ⟩ (fun r => ∀ c : Dev nD,
      r.2.mem ((c.tc : Thread nD τ).loc main_v19) = G (xarr m c) (earr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (tail_acc _ _), (h c).2⟩)
    (run_value m ρ (fun c => accArr (xarr m c) (earr m c)) (fun c => final_acc m c (hrow c)))

end Cert.KernelIdeal.SegMeanValue

end
-- ==== Proof.RefGather.lean ====
/-
  The reference's message array read at an index.

  `x[idx]` gathers row `idx e` of the feature table, the index read as a signed integer and clamped into [0, 9999]. The
  reference first wraps a negative index by the node count; for a word below the node count nothing wraps and nothing
  clamps. The message of edge `e` is its source row followed by its destination row.
-/
import proofs.«419609_j9698036155133_1_alg».proof.Proof.Gen.ReferenceIdeal.Read
import proofs.«419609_j9698036155133_1_alg».proof.Proof.Spec
import Idealize.ShloMosaic.PureOps.Ideal.Laws
import Idealize.ShloMosaic.Lib.Pipeline.Value
import Idealize.ShloMosaic.Lib.StableHlo.Predicate

noncomputable section

open Idealize.ShloMosaic Idealize.ShloMosaic.TcCoe Idealize.SL.Sem Idealize.ShloMosaic.ValueIdx

namespace Cert.ReferenceIdeal.SegMeanValue

open Cert.ReferenceIdeal Cert.ReferenceIdeal.Gen Cert.ReferenceIdeal.Read Cert.SegMean

/-- The gather's dimension numbers. -/
private abbrev gd := gather_S10000x128_S640000x1_S640000x128_1_0_n_n_0_1_1128

/-- On the row axis the slice starts at the start index of `e`, read signed and clamped into [0, 9999]. -/
theorem gather_start0 (idx : IVec S640000x1 32) (e : Fin 640000) (d : Fin 128) :
    gd.start (ix2 e d) idx (0 : Fin 2) = min (idx (ix2 e (0 : Fin 1))).toInt.toNat 9999 := by
  unfold GatherDims.start
  rw [dif_pos (show (0 : Fin 2) ∈ gd.startIndexMap from List.mem_singleton.mpr rfl)]
  have hsi : gd.siIdx (ix2 e d) ⟨List.idxOf (0 : Fin 2) gd.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis, which the start index does not name, the slice starts at 0. -/
theorem gather_start1 (idx : IVec S640000x1 32) (e : Fin 640000) (d : Fin 128) :
    gd.start (ix2 e d) idx (1 : Fin 2) = 0 := by
  unfold GatherDims.start
  rw [dif_neg (show (1 : Fin 2) ∉ gd.startIndexMap from by decide)]

/-- On the column axis the offset is the result's column `d`. -/
theorem gather_off1 (e : Fin 640000) (d : Fin 128) :
    gd.offCoord (ix2 e d) (1 : Fin 2) = d.val := by
  unfold GatherDims.offCoord
  rw [dif_pos (show (1 : Fin 2) ∈ gd.sKept from by decide)]
  rfl

/-- The gather at `(e, d)`: the table's row at the start index of `e`, read signed and clamped into [0, 9999]. -/
theorem gather_apply (x0 : FVec Ideal S10000x128 .f32) (idx : IVec S640000x1 32) (e : Fin 640000) (d : Fin 128) :
    Host.gather gather_S10000x128_S640000x1_S640000x128_1_0_n_n_0_1_1128 x0 idx (ix2 e d)
      = x0 (ix2 (⟨min (idx (ix2 e (0 : Fin 1))).toInt.toNat 9999, by omega⟩ : Fin 10000) d) := by
  unfold Host.gather
  congr 1
  funext a
  refine Fin.ext ?_
  match a with
  | ⟨0, _⟩ =>
    show gd.start (ix2 e d) idx (0 : Fin 2) + gd.batchCoord (ix2 e d) (0 : Fin 2) + gd.offCoord (ix2 e d) (0 : Fin 2) = _
    rw [GatherDims.batchCoord_eq_zero _ _ _ List.not_mem_nil,
      GatherDims.offCoord_eq_zero _ _ _ (fun h => ((GatherDims.mem_sKept _ _).mp h).1 (List.mem_singleton.mpr rfl)),
      gather_start0]
    rfl
  | ⟨1, _⟩ =>
    show gd.start (ix2 e d) idx (1 : Fin 2) + gd.batchCoord (ix2 e d) (1 : Fin 2) + gd.offCoord (ix2 e d) (1 : Fin 2) = _
    rw [GatherDims.batchCoord_eq_zero _ _ _ List.not_mem_nil, gather_start1, gather_off1]
    simp

/-! ## The edge list's rows -/

/-- Row 0 of the edge list, flattened, at `e`: the destination word. -/
theorem row0_apply (x1 : IVec S2x640000 32) (e : Fin 640000) :
    val_main_v1 (F := Ideal) x1 (ix1 e) = dst x1 e := by
  rw [val_main_v1_apply, val_main_v0_apply]
  unfold dst
  congr 1
  funext a
  match a with
  | ⟨0, _⟩ => rfl
  | ⟨1, _⟩ => exact Fin.ext (Nat.mod_eq_of_lt e.isLt)

/-- Row 1 of the edge list, flattened, at `e`: the source word. -/
theorem row1_apply (x1 : IVec S2x640000 32) (e : Fin 640000) :
    val_main_v3 (F := Ideal) x1 (ix1 e) = src x1 e := by
  rw [val_main_v3_apply, val_main_v2_apply]
  unfold src
  congr 1
  funext a
  match a with
  | ⟨0, _⟩ => rfl
  | ⟨1, _⟩ => exact Fin.ext (Nat.mod_eq_of_lt e.isLt)

/-- The scatter index of edge `e` in both scatters is its destination word. -/
theorem sidx_apply (x1 : IVec S2x640000 32) (e : Fin 640000) :
    val_main_v20 (F := Ideal) x1 (ix2 e (0 : Fin 1)) = dst x1 e ∧ val_main_v24 (F := Ideal) x1 (ix2 e (0 : Fin 1)) = dst x1 e := by
  constructor
  · rw [val_main_v20_apply]
    have hi : idx_main_v20 (ix2 e (0 : Fin 1)) = ix1 e := by
      funext a; match a with | ⟨0, _⟩ => rfl
    rw [hi, row0_apply]
  · rw [val_main_v24_apply]
    have hi : idx_main_v24 (ix2 e (0 : Fin 1)) = ix1 e := by
      funext a; match a with | ⟨0, _⟩ => rfl
    rw [hi, row0_apply]

/-! ## The start index: a word that names a node neither wraps nor clamps -/

/-- A word below 2³¹ is not negative read signed, so the wrap by the node count leaves it. -/
theorem wrap_small (w : BitVec 32) (hw : w.toNat < 2 ^ 31) :
    Scalar.select (IntOp.cmpi .slt w 0#32) (IntOp.addi w 10000#32) w = w := by
  have h0 : IntOp.cmpi .slt w 0#32 = 0#1 := by
    apply eq_zero_of_ne_one
    intro h
    have := (StableHlo.Predicate.slt_iff_toNat (a := w) (b := 0#32) hw (by decide)).mp h
    simp at this
  rw [h0, select_zero]

/-- A word below the node count, read signed and clamped into [0, 9999], is its value. -/
theorem clamp_small (w : BitVec 32) (hw : w.toNat < 10000) : min w.toInt.toNat 9999 = w.toNat := by
  rw [StableHlo.Predicate.toInt_eq_toNat_of_lt (by omega), Int.toNat_natCast]
  omega

/-- The first gather's start index of edge `e`: the source word, when it names a node. -/
theorem start_src (x1 : IVec S2x640000 32) (e : Fin 640000) (hrow : (src x1 e).toNat < 10000) :
    val_main_v9 (F := Ideal) x1 (ix2 e (0 : Fin 1)) = src x1 e := by
  rw [val_main_v9_apply]
  have hi : idx_main_v9 (ix2 e (0 : Fin 1)) = ix1 e := by
    funext a; match a with | ⟨0, _⟩ => rfl
  rw [hi, val_main_v8_apply, val_main_v5_apply, val_main_v7_apply, val_main_v4_apply, val_main_v6_apply,
    val_main_c_apply, val_main_c_0_apply, row1_apply]
  exact wrap_small _ (by omega)

/-- The second gather's start index of edge `e`: the destination word, when it names a node. -/
theorem start_dst (x1 : IVec S2x640000 32) (e : Fin 640000) (hrow : (dst x1 e).toNat < 10000) :
    val_main_v16 (F := Ideal) x1 (ix2 e (0 : Fin 1)) = dst x1 e := by
  rw [val_main_v16_apply]
  have hi : idx_main_v16 (ix2 e (0 : Fin 1)) = ix1 e := by
    funext a; match a with | ⟨0, _⟩ => rfl
  rw [hi, val_main_v15_apply, val_main_v12_apply, val_main_v14_apply, val_main_v11_apply, val_main_v13_apply,
    val_main_c_1_apply, val_main_c_2_apply, row0_apply]
  exact wrap_small _ (by omega)

/-- The message array's first 128 columns: the source node's features, for a source word that names a node. -/
theorem msg_src (x0 : FVec Ideal S10000x128 .f32) (x1 : IVec S2x640000 32) (e : Fin 640000) (j : Fin 256) (hj : j.val < 128)
    (hrow : (src x1 e).toNat < 10000) :
    val_main_v18 (F := Ideal) x0 x1 (ix2 e j) = x0 (ix2 (srcNode x1 e) (⟨j.val, hj⟩ : Fin 128)) := by
  unfold val_main_v18
  refine (concatenate_pair_apply_left (t := S640000x256) (s₁ := S640000x128) (s₂ := S640000x128) (1 : Fin 2)
    (val_main_v10 (F := Ideal) x0 x1) (val_main_v17 (F := Ideal) x0 x1) _ (ix2 e j) rfl (ix2 e (⟨j.val, hj⟩ : Fin 128)) ?_).trans ?_
  · intro b
    match b with
    | ⟨0, _⟩ => rfl
    | ⟨1, _⟩ => rfl
  · unfold val_main_v10
    rw [gather_apply]
    have hn : (⟨min (val_main_v9 (F := Ideal) x1 (ix2 e (0 : Fin 1))).toInt.toNat 9999, by omega⟩ : Fin 10000)
        = srcNode x1 e := by
      apply Fin.ext
      show min (val_main_v9 (F := Ideal) x1 (ix2 e (0 : Fin 1))).toInt.toNat 9999 = min (src x1 e).toNat 9999
      rw [start_src x1 e hrow, clamp_small _ hrow]
      omega
    exact congrArg (fun n : Fin 10000 => x0 (ix2 n (⟨j.val, hj⟩ : Fin 128))) hn

/-- The message array's last 128 columns: the destination node's features, for a destination word that names node `i`. -/
theorem msg_dst (x0 : FVec Ideal S10000x128 .f32) (x1 : IVec S2x640000 32) (e : Fin 640000) (j : Fin 256) (hj : ¬ j.val < 128)
    (i : Fin 10000) (hi : dst x1 e = BitVec.ofNat 32 i.val) :
    val_main_v18 (F := Ideal) x0 x1 (ix2 e j) = x0 (ix2 i (⟨j.val - 128, by have := j.isLt; omega⟩ : Fin 128)) := by
  have hv : (dst x1 e).toNat = i.val := by
    rw [hi, BitVec.toNat_ofNat]; exact Nat.mod_eq_of_lt (by have := i.isLt; omega)
  have hrow : (dst x1 e).toNat < 10000 := by rw [hv]; exact i.isLt
  unfold val_main_v18
  refine (concatenate_pair_apply_right (t := S640000x256) (s₁ := S640000x128) (s₂ := S640000x128) (1 : Fin 2)
    (val_main_v10 (F := Ideal) x0 x1) (val_main_v17 (F := Ideal) x0 x1) _ (ix2 e j) rfl rfl
    (ix2 e (⟨j.val - 128, by have := j.isLt; omega⟩ : Fin 128)) ?_ ?_).trans ?_
  · intro b hb
    match b, hb with
    | ⟨0, _⟩, _ => rfl
    | ⟨1, _⟩, hb => exact absurd rfl hb
  · show (j.val - 128) + 128 = j.val
    omega
  · unfold val_main_v17
    rw [gather_apply]
    have hn : (⟨min (val_main_v16 (F := Ideal) x1 (ix2 e (0 : Fin 1))).toInt.toNat 9999, by omega⟩ : Fin 10000) = i := by
      apply Fin.ext
      show min (val_main_v16 (F := Ideal) x1 (ix2 e (0 : Fin 1))).toInt.toNat 9999 = i.val
      rw [start_dst x1 e hrow, clamp_small _ hrow, hv]
    exact congrArg (fun n : Fin 10000 => x0 (ix2 n (⟨j.val - 128, by have := j.isLt; omega⟩ : Fin 128))) hn

end Cert.ReferenceIdeal.SegMeanValue

end
-- ==== Proof.RefScatter.lean ====
/-
  The reference's two accumulating scatters read at an index, on the extended reals.

  An update row `e` lands on operand row `i` when its scatter index, read as a signed integer, is `i`; an index outside
  the operand drops the update. So the scattered array at `(i, j)` is the operand there plus the sum, over the rows `e`
  whose index is `i`, of the update at `(e, j)` — the column is kept — and the rank-1 scatter likewise without a column.
-/
import proofs.«419609_j9698036155133_1_alg».proof.ReferenceIdeal
import proofs.«419609_j9698036155133_1_alg».proof.Proof.Gen.ReferenceIdeal
import proofs.«419609_j9698036155133_1_alg».proof.Proof.Spec
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.SegMeanValue

open Cert.ReferenceIdeal Cert.ReferenceIdeal.Gen

/-! ## Indices by coordinates -/

/-- An index of a rank-2 shape is determined by its two coordinates. -/
private theorem ix2_ext {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- An index of a rank-1 shape is determined by its coordinate. -/
private theorem ix1_ext {n : Nat} (f : (⟨1, ![n]⟩ : Shape).Idx) (a : Fin n) (h0 : (f 0).val = a.val) : f = ix1 a := by
  funext d
  match d with
  | ⟨0, _⟩ => exact Fin.ext h0

/-- A sum over a rank-1 index set is the sum over its coordinate range. -/
private theorem sum_idx1 {M : Type*} [AddCommMonoid M] {n : Nat} (f : (⟨1, ![n]⟩ : Shape).Idx → M) :
    ∑ y, f y = ∑ a : Fin n, f (ix1 a) := by
  let E : (⟨1, ![n]⟩ : Shape).Idx ≃ Fin n := ⟨fun y => y 0, ix1, fun y => (eq_ix1 y).symm, fun _ => rfl⟩
  exact (Equiv.sum_comp E.symm f).symm

/-! ## The rank-2 scatter: update `(e, j')` lands at row `idx e`, column `j'`

The dimension numbers name operand axis 0 as the scattered axis (it is inserted, so it carries no window coordinate) and
send the update's column axis to operand axis 1 (which has no start index). The sum over the updates landing at `(i, j)`
is then a double sum over rows and columns: the inner sum keeps the one column `j`, the outer the rows whose index is
`i`. -/

/-- The rank-2 scatter's dimension numbers. -/
private abbrev D2 : ScatterDims S10000x256 S640000x1 S640000x256 := scatter_S10000x256_S640000x1_S640000x256_1_0_0_1

/-- On the row axis the window starts at the scatter index of the update's row, read signed. -/
private theorem d2_start0 (idx : IVec S640000x1 32) (e : Fin 640000) (j' : Fin 256) :
    D2.start (ix2 e j') idx (0 : Fin 2) = (idx (ix2 e (0 : Fin 1))).toInt := by
  unfold ScatterDims.start
  rw [dif_pos (show (0 : Fin 2) ∈ D2.scatterDimsToOperandDims from List.mem_singleton.mpr rfl)]
  have hsi : D2.siIdx (ix2 e j') ⟨List.idxOf (0 : Fin 2) D2.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the index vector does not name that axis. -/
private theorem d2_start1 (idx : IVec S640000x1 32) (e : Fin 640000) (j' : Fin 256) :
    D2.start (ix2 e j') idx (1 : Fin 2) = 0 := by
  unfold ScatterDims.start
  rw [dif_neg (show (1 : Fin 2) ∉ D2.scatterDimsToOperandDims from
    fun h => absurd (List.mem_singleton.mp h) (by decide))]

/-- The row axis is inserted: it is not among the operand's kept axes … -/
private theorem d2_not_mem_sKept0 : (0 : Fin 2) ∉ D2.sKept := by
  intro h
  have h2 := (List.mem_filter.mp h).2
  exact (of_decide_eq_true h2) (List.mem_singleton.mpr rfl)

/-- … and the column axis is. -/
private theorem d2_mem_sKept1 : (1 : Fin 2) ∈ D2.sKept :=
  List.mem_filter.mpr ⟨List.mem_finRange _, decide_eq_true (fun h => absurd (List.mem_singleton.mp h) (by decide))⟩

/-- The window coordinate on the row axis is zero. -/
private theorem d2_window0 (e : Fin 640000) (j' : Fin 256) : D2.window (ix2 e j') (0 : Fin 2) = 0 := by
  unfold ScatterDims.window
  rw [dif_neg d2_not_mem_sKept0]

/-- The window coordinate on the column axis is the update's column. -/
private theorem d2_window1 (e : Fin 640000) (j' : Fin 256) : D2.window (ix2 e j') (1 : Fin 2) = j'.val := by
  unfold ScatterDims.window
  rw [dif_pos d2_mem_sKept1]
  rfl

/-- Update `(e, j')` lands at `(i, j)` exactly when the scatter index of row `e`, read signed, is `i` and `j' = j`:
    the column is always inside the operand, and the row is inside it because it equals `i`. -/
private theorem d2_resultIdx_iff (idx : IVec S640000x1 32) (e : Fin 640000) (j' : Fin 256) (i : Fin 10000) (j : Fin 256) :
    D2.resultIdx? (ix2 e j') idx = some (ix2 i j) ↔ (idx (ix2 e (0 : Fin 1))).toInt = (i.val : ℤ) ∧ j' = j := by
  have hs0 := d2_start0 idx e j'
  have hs1 := d2_start1 idx e j'
  have hw0 := d2_window0 e j'
  have hw1 := d2_window1 e j'
  have hz0 : S10000x256.size (0 : Fin 2) = 10000 := rfl
  have hz1 : S10000x256.size (1 : Fin 2) = 256 := rfl
  unfold ScatterDims.resultIdx?
  constructor
  · intro H
    split at H
    · rename_i h
      have H' := Option.some.inj H
      have h0 : (D2.start (ix2 e j') idx (0 : Fin 2) + D2.window (ix2 e j') (0 : Fin 2)).toNat = i.val :=
        congrArg Fin.val (congrFun H' (0 : Fin 2))
      have h1 : (D2.start (ix2 e j') idx (1 : Fin 2) + D2.window (ix2 e j') (1 : Fin 2)).toNat = j.val :=
        congrArg Fin.val (congrFun H' (1 : Fin 2))
      have g0 := (h (0 : Fin 2)).1
      rw [hs0, hw0] at h0 g0
      rw [hs1, hw1] at h1
      exact ⟨by omega, Fin.ext (by omega)⟩
    · exact absurd H (by simp)
  · rintro ⟨h0, rfl⟩
    have h : ∀ a, 0 ≤ D2.start (ix2 e j') idx a + D2.window (ix2 e j') a ∧
        D2.start (ix2 e j') idx a + D2.window (ix2 e j') a < S10000x256.size a := by
      refine Fin.forall_fin_two.mpr ⟨?_, ?_⟩
      · rw [hs0, hw0, h0, hz0]; have := i.isLt; omega
      · rw [hs1, hw1, hz1]; have := j'.isLt; omega
    rw [dif_pos h]
    refine congrArg some (ix2_ext _ _ _ ?_ ?_)
    · show (D2.start (ix2 e j') idx (0 : Fin 2) + D2.window (ix2 e j') (0 : Fin 2)).toNat = i.val
      rw [hs0, hw0, h0]; omega
    · show (D2.start (ix2 e j') idx (1 : Fin 2) + D2.window (ix2 e j') (1 : Fin 2)).toNat = j'.val
      rw [hs1, hw1]; omega

/-- The rank-2 scatter-add at `(i, j)`. -/
theorem scatter2_apply (X : FVec Ideal S10000x256 .f32) (idx : IVec S640000x1 32) (Uv : FVec Ideal S640000x256 .f32)
    (i : Fin 10000) (j : Fin 256) :
    Host.scatterAdd (F := Ideal) scatter_S10000x256_S640000x1_S640000x256_1_0_0_1 X idx Uv (ix2 i j)
      = X (ix2 i j) + ∑ e ∈ Finset.univ.filter (fun e : Fin 640000 => (idx (ix2 e (0 : Fin 1))).toInt = (i.val : ℤ)),
          Uv (ix2 e j) := by
  unfold Host.scatterAdd
  rw [Ideal.hostScatterAdd_def]
  unfold Ideal.hostScatterAdd
  refine congrArg (fun t => X (ix2 i j) + t) ?_
  rw [Finset.sum_filter, sum_idx2, Finset.sum_filter]
  refine Finset.sum_congr rfl fun a _ => ?_
  simp only [d2_resultIdx_iff]
  by_cases hP : (idx (ix2 a (0 : Fin 1))).toInt = (i.val : ℤ)
  · simp only [hP, true_and, if_true]
    rw [Finset.sum_ite_eq']
    simp
  · simp only [hP, false_and, if_false]
    exact Finset.sum_const_zero

/-! ## The rank-1 scatter: update `e` lands at `idx e`

The same dimension numbers without a window axis: the one operand axis is the scattered, inserted one. -/

/-- The rank-1 scatter's dimension numbers. -/
private abbrev D1 : ScatterDims S10000 S640000x1 S640000 := scatter_S10000_S640000x1_S640000_n_0_0_1

/-- The window starts at the scatter index of the update, read signed. -/
private theorem d1_start0 (idx : IVec S640000x1 32) (e : Fin 640000) :
    D1.start (ix1 e) idx (0 : Fin 1) = (idx (ix2 e (0 : Fin 1))).toInt := by
  unfold ScatterDims.start
  rw [dif_pos (show (0 : Fin 1) ∈ D1.scatterDimsToOperandDims from List.mem_singleton.mpr rfl)]
  have hsi : D1.siIdx (ix1 e) ⟨List.idxOf (0 : Fin 1) D1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the operand keeps no axis. -/
private theorem d1_not_mem_sKept0 : (0 : Fin 1) ∉ D1.sKept := by
  intro h
  have h2 := (List.mem_filter.mp h).2
  exact (of_decide_eq_true h2) (List.mem_singleton.mpr rfl)

/-- The window coordinate is zero. -/
private theorem d1_window0 (e : Fin 640000) : D1.window (ix1 e) (0 : Fin 1) = 0 := by
  unfold ScatterDims.window
  rw [dif_neg d1_not_mem_sKept0]

/-- Update `e` lands at `i` exactly when its scatter index, read signed, is `i`. -/
private theorem d1_resultIdx_iff (idx : IVec S640000x1 32) (e : Fin 640000) (i : Fin 10000) :
    D1.resultIdx? (ix1 e) idx = some (ix1 i) ↔ (idx (ix2 e (0 : Fin 1))).toInt = (i.val : ℤ) := by
  have hs0 := d1_start0 idx e
  have hw0 := d1_window0 e
  have hz0 : S10000.size (0 : Fin 1) = 10000 := rfl
  unfold ScatterDims.resultIdx?
  constructor
  · intro H
    split at H
    · rename_i h
      have H' := Option.some.inj H
      have h0 : (D1.start (ix1 e) idx (0 : Fin 1) + D1.window (ix1 e) (0 : Fin 1)).toNat = i.val :=
        congrArg Fin.val (congrFun H' (0 : Fin 1))
      have g0 := (h (0 : Fin 1)).1
      rw [hs0, hw0] at h0 g0
      omega
    · exact absurd H (by simp)
  · intro h0
    have h : ∀ a, 0 ≤ D1.start (ix1 e) idx a + D1.window (ix1 e) a ∧
        D1.start (ix1 e) idx a + D1.window (ix1 e) a < S10000.size a := by
      intro a
      obtain rfl : a = (0 : Fin 1) := Subsingleton.elim _ _
      rw [hs0, hw0, h0, hz0]; have := i.isLt; omega
    rw [dif_pos h]
    refine congrArg some (ix1_ext _ _ ?_)
    show (D1.start (ix1 e) idx (0 : Fin 1) + D1.window (ix1 e) (0 : Fin 1)).toNat = i.val
    rw [hs0, hw0, h0]; omega

/-- The rank-1 scatter-add at `i`. -/
theorem scatter1_apply (X : FVec Ideal S10000 .f32) (idx : IVec S640000x1 32) (Uv : FVec Ideal S640000 .f32)
    (i : Fin 10000) :
    Host.scatterAdd (F := Ideal) scatter_S10000_S640000x1_S640000_n_0_0_1 X idx Uv (ix1 i)
      = X (ix1 i) + ∑ e ∈ Finset.univ.filter (fun e : Fin 640000 => (idx (ix2 e (0 : Fin 1))).toInt = (i.val : ℤ)),
          Uv (ix1 e) := by
  unfold Host.scatterAdd
  rw [Ideal.hostScatterAdd_def]
  unfold Ideal.hostScatterAdd
  refine congrArg (fun t => X (ix1 i) + t) ?_
  rw [Finset.sum_filter, sum_idx1, Finset.sum_filter]
  refine Finset.sum_congr rfl fun a _ => ?_
  simp only [d1_resultIdx_iff]

end Cert.ReferenceIdeal.SegMeanValue

end
-- ==== Proof.RefRead.lean ====
/-
  The reference computes the specification's function.

  The reference scatters each edge's message — its source node's features followed by its destination node's — onto the
  edge's destination, counts the edges per destination the same way, and divides by `max count 1`. An edge's scatter
  index, read signed, is node `i` exactly when the edge lands on `i`. So the scattered sum's first 128 columns are the
  accumulated array, the count is the in-degree, and in the last 128 columns every edge landing on `i` contributes the
  same finite value `x[i, ·]`: their mean is that value when there is such an edge and zero when there is none.
-/
import proofs.«419609_j9698036155133_1_alg».proof.Proof.RefGather
import proofs.«419609_j9698036155133_1_alg».proof.Proof.RefScatter

noncomputable section

open Idealize.ShloMosaic Idealize.ShloMosaic.TcCoe Idealize.SL.Sem Idealize.ShloMosaic.ValueIdx

namespace Cert.ReferenceIdeal.SegMeanValue

open Cert.ReferenceIdeal Cert.ReferenceIdeal.Gen Cert.ReferenceIdeal.Read Cert.SegMean

/-- A word read signed is the number `n` below the node count exactly when it is the word of `n`. -/
theorem toInt_eq_iff (w : BitVec 32) (n : ℕ) (hn : n < 10000) : w.toInt = (n : ℤ) ↔ w = BitVec.ofNat 32 n := by
  have hw := w.isLt
  constructor
  · intro h
    apply BitVec.eq_of_toNat_eq
    rw [BitVec.toNat_ofNat, Nat.mod_eq_of_lt (by omega)]
    rw [BitVec.toInt_eq_toNat_cond] at h
    split_ifs at h <;> omega
  · rintro rfl
    rw [BitVec.toInt_eq_toNat_cond, BitVec.toNat_ofNat, Nat.mod_eq_of_lt (by omega), if_pos (by omega)]

theorem ofBits_one : Ideal.ofBits .f32 0x3F800000#32 = 1 := by
  simp [Ideal.ofBits, Ideal.ieee, -EReal.coe_mul]; norm_num

/-- The edges whose scatter index is node `i` are the edges landing on `i`. -/
theorem filter_lands (x1 : IVec S2x640000 32) (idx : IVec S640000x1 32) (hidx : ∀ e : Fin 640000, idx (ix2 e (0 : Fin 1)) = dst x1 e)
    (i : Fin 10000) :
    Finset.univ.filter (fun e : Fin 640000 => (idx (ix2 e (0 : Fin 1))).toInt = (i.val : ℤ)) = Finset.univ.filter (Lands x1 i) := by
  ext e
  simp only [Finset.mem_filter, Finset.mem_univ, true_and]
  rw [hidx e, toInt_eq_iff _ _ i.isLt]
  rfl

/-- The count array at node `i` is the in-degree. -/
theorem count_apply (x1 : IVec S2x640000 32) (i : Fin 10000) : val_main_v25 (F := Ideal) x1 (ix1 i) = degE x1 i := by
  unfold val_main_v25
  rw [scatter1_apply, filter_lands x1 _ (fun e => (sidx_apply x1 e).2) i, val_main_v23_apply, val_main_cst_4_apply]
  show Ideal.ofBits .f32 0x00000000#32 + _ = _
  rw [Ideal.ofBits_zero_f32, zero_add]
  unfold degE deg
  rw [← sum_one_eq_card]
  refine Finset.sum_congr rfl fun e _ => ?_
  rw [val_main_v22_apply, val_main_cst_3_apply]
  exact ofBits_one

/-- The divisor at `(i, j)` is `max (in-degree) 1`. -/
theorem denom_apply (x1 : IVec S2x640000 32) (i : Fin 10000) (j : Fin 256) :
    val_main_v29 (F := Ideal) x1 (ix2 i j) = max (degE x1 i) 1 := by
  rw [val_main_v29_apply, val_main_v28_apply, val_main_v27_apply]
  have hi : idx_main_v28 (idx_main_v29 (ix2 i j)) = ix1 i := funext fun a => match a with | ⟨0, _⟩ => rfl
  rw [hi, count_apply, val_main_v26_apply, val_main_cst_5_apply]
  show max _ (Ideal.ofBits .f32 0x3F800000#32) = _
  rw [ofBits_one]

/-- The scattered sum at `(i, j)`: over the edges landing on `i`, the message's column `j`. -/
theorem summed_apply (x0 : FVec Ideal S10000x128 .f32) (x1 : IVec S2x640000 32) (i : Fin 10000) (j : Fin 256) :
    val_main_v21 (F := Ideal) x0 x1 (ix2 i j) = ∑ e ∈ Finset.univ.filter (Lands x1 i), val_main_v18 (F := Ideal) x0 x1 (ix2 e j) := by
  unfold val_main_v21
  rw [scatter2_apply, filter_lands x1 _ (fun e => (sidx_apply x1 e).1) i, val_main_v19_apply, val_main_cst_apply]
  show Ideal.ofBits .f32 0x00000000#32 + _ = _
  rw [Ideal.ofBits_zero_f32, zero_add]

/-- THE REFERENCE'S RESULT is the specification's function, for finite features and source words naming nodes. -/
theorem result_eq (x0 : FVec Ideal S10000x128 .f32) (x1 : IVec S2x640000 32)
    (hfin : ∀ i : SX.Idx, ∃ r : ℝ, x0 i = (r : EReal)) (hrow : ∀ e : Fin 640000, (src x1 e).toNat < 10000) :
    val_main_v30 (F := Ideal) x0 x1 = G x0 x1 := by
  funext y
  obtain ⟨i, j, rfl⟩ : ∃ (i : Fin 10000) (j : Fin 256), y = ix2 i j := ⟨y 0, y 1, eq_ix2 y⟩
  rw [G_ix2, val_main_v30_apply, summed_apply, denom_apply]
  show Ideal.div _ _ = _
  unfold Gat
  by_cases hj : j.val < 128
  · rw [dif_pos hj]
    have hacc : (∑ e ∈ Finset.univ.filter (Lands x1 i), val_main_v18 (F := Ideal) x0 x1 (ix2 e j)) = acc x0 x1 i j := by
      unfold acc
      refine Finset.sum_congr rfl fun e _ => ?_
      rw [msg_src x0 x1 e j hj (hrow e)]
      unfold wgt
      rw [dif_pos hj]
    rw [hacc]
  · rw [dif_neg hj]
    obtain ⟨r, hr⟩ := hfin (ix2 i (⟨j.val - 128, by have := j.isLt; omega⟩ : Fin 128))
    have hsum : (∑ e ∈ Finset.univ.filter (Lands x1 i), val_main_v18 (F := Ideal) x0 x1 (ix2 e j))
        = ∑ _e ∈ Finset.univ.filter (Lands x1 i), (r : EReal) :=
      Finset.sum_congr rfl fun e he => by
        rw [msg_dst x0 x1 e j hj i (Finset.mem_filter.mp he).2, hr]
    rw [hsum, hr]
    exact mean_const _ r

end Cert.ReferenceIdeal.SegMeanValue

end
-- ==== Proof.lean ====
/-
  The certificate: a graph layer's mean aggregation computed by one-hot matrix products equals the gather and
  segment-sum reference, over the extended reals.

  Inputs: node features `x : [10000, 128]`, all finite, and an edge list `es : [2, 640000]` of 32-bit words, row 0 the
  destinations and row 1 the sources, the source words in `[0, 10000)`. Output `[10000, 256]`: for node `i`, the mean over
  the edges landing on `i` of the source node's features (columns 0–127) and of the destination node's features (columns
  128–255), with divisor `max (in-degree) 1`.

  The reference gathers both feature rows per edge, scatter-adds them onto the destination, scatter-adds a one per edge
  for the count, and divides. The kernel walks the edges 128 at a time: it compares a node iota with the block's source
  words and destination words to get two one-hot blocks, multiplies the source one-hot block with the feature table
  (a one-hot weighted sum over the nodes is the source node's row), appends 128 columns of ones, multiplies with the
  destination one-hot block (the sum over the block's edges that land on each node), and adds the product into an output
  block that is carried across the grid and written back once. After the region the first half is divided by
  `max (column 128) 1`, column 128 being the count, and the second half is `x` where the count is positive and zero
  elsewhere. The two agree: regrouping the sum over edges into blocks of 128 is associativity and commutativity of the
  extended reals' addition, and the mean of `n` copies of a finite `x[i, ·]` is `x[i, ·]` for `n > 0` and `0` for `n = 0`,
  which is where finiteness of the features is used. A destination word naming no node drops its edge in both programs;
  a source word must name a node, since the kernel's one-hot sum gives zero where the reference's gather wraps or clamps.

  The three frames are the generated ones (the reference's is its generated run with the result dropped). The idealized
  kernel is the kernel's own text read over the extended reals, with no operation rewritten, so `preserves` is trivial.
-/
import proofs.«419609_j9698036155133_1_alg».proof.Defs
import proofs.«419609_j9698036155133_1_alg».proof.Proof.Gen.Kernel
import proofs.«419609_j9698036155133_1_alg».proof.Proof.Gen.Kernel.Frame
import proofs.«419609_j9698036155133_1_alg».proof.Proof.Gen.KernelIdeal
import proofs.«419609_j9698036155133_1_alg».proof.Proof.Gen.KernelIdeal.Frame
import proofs.«419609_j9698036155133_1_alg».proof.Proof.Gen.ReferenceIdeal
import proofs.«419609_j9698036155133_1_alg».proof.Proof.Gen.ReferenceIdeal.Run
import proofs.«419609_j9698036155133_1_alg».proof.Proof.Gen.ReferenceIdeal.Read
import proofs.«419609_j9698036155133_1_alg».proof.Proof.Gen.Pre_finite_inputs
import proofs.«419609_j9698036155133_1_alg».proof.Proof.PreDecode
import proofs.«419609_j9698036155133_1_alg».proof.Proof.KernelValue
import proofs.«419609_j9698036155133_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's function of the arguments: the kernel by its run read through the
    accumulated array, the reference by its generated run read one operation at a time. -/
theorem algebraic : Cert.algebraic_KernelIdeal_ReferenceIdeal := by
  intro m ρ m' ρ' hpre hagree
  have hdec := fun c => Cert.SegMean.pre_decode _ _ (hpre c)
  refine ⟨fun c => Cert.SegMean.G (Cert.KernelIdeal.SegMeanValue.xarr m c) (Cert.KernelIdeal.SegMeanValue.earr m c),
    Cert.KernelIdeal.SegMeanValue.run m ρ (fun c => (hdec c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v30_eq]
  exact Cert.ReferenceIdeal.SegMeanValue.result_eq _ _ (hdec c).1 (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
